-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8388608x3 : Shape := ⟨2, ![8388608, 3]⟩
abbrev S8388608 : Shape := ⟨1, ![8388608]⟩
abbrev S_ : Shape := ⟨0, ![]⟩

class Facts : Prop where
  bcast_S_S8388608x3 : S_.BroadcastsInDim S8388608x3 (![] : Fin 0 → Fin S8388608x3.rank)
  reducesTo_S8388608x3_S_d0_1 : S8388608x3.ReducesTo [0, 1] S_
  h_S_ : 0 < S_.numel
  bcast_S_S8388608 : S_.BroadcastsInDim S8388608 (![] : Fin 0 → Fin S8388608.rank)
  reducesTo_S8388608_S_d0 : S8388608.ReducesTo [0] S_

variable [Facts]

def fn {F : FTy → Type} [FloatOps F] (main_arg0 : FVec F S8388608x3 .f32) (main_arg1 : IVec S8388608 32) : IVec S_ 1 :=
  let main_v0 : FVec F S8388608x3 .f32 := Host.absf main_arg0
  let main_cst : FVec F S_ .f32 := constant S_ .f32 0x7F800000#32
  let main_v1 : FVec F S8388608x3 .f32 := broadcastInDim S8388608x3 ![] bcast_S_S8388608x3 main_cst
  let main_v2 : IVec S8388608x3 1 := cmpf .olt main_v0 main_v1
  let main_c : IVec S_ 1 := constantI S_ 1 1#1
  let main_v3 : IVec S_ 1 := (fun x v => Host.reduce IntOp.andi x v reducesTo_S8388608x3_S_d0_1 h_S_) main_v2 main_c
  let main_c_0 : IVec S_ 32 := constantI S_ 32 0#32
  let main_v4 : IVec S8388608 32 := broadcastInDim S8388608 ![] bcast_S_S8388608 main_c_0
  let main_v5 : IVec S8388608 1 := cmpi .sge main_arg1 main_v4
  let main_c_1 : IVec S_ 32 := constantI S_ 32 3#32
  let main_v6 : IVec S8388608 32 := broadcastInDim S8388608 ![] bcast_S_S8388608 main_c_1
  let main_v7 : IVec S8388608 1 := cmpi .slt main_arg1 main_v6
  let main_v8 : IVec S8388608 1 := andi main_v5 main_v7
  let main_c_2 : IVec S_ 1 := constantI S_ 1 1#1
  let main_v9 : IVec S_ 1 := (fun x v => Host.reduce IntOp.andi x v reducesTo_S8388608_S_d0 h_S_) main_v8 main_c_2
  let main_v10 : IVec S_ 1 := andi main_v3 main_v9
  main_v10
-- ==== Kernel.lean ====
abbrev S8388608x3 : Shape := ⟨2, ![8388608, 3]⟩
abbrev S8388608 : Shape := ⟨1, ![8388608]⟩
abbrev S3x8388608 : Shape := ⟨2, ![3, 8388608]⟩
abbrev S3x256x32768 : Shape := ⟨3, ![3, 256, 32768]⟩
abbrev S256x32768 : Shape := ⟨2, ![256, 32768]⟩
abbrev S2x1x1 : Shape := ⟨3, ![2, 1, 1]⟩
abbrev S3x8x32768 : Shape := ⟨3, ![3, 8, 32768]⟩
abbrev S8x32768 : Shape := ⟨2, ![8, 32768]⟩
abbrev S1x1x1 : Shape := ⟨3, ![1, 1, 1]⟩
abbrev S1x8x32768 : Shape := ⟨3, ![1, 8, 32768]⟩
abbrev S8 : Shape := ⟨1, ![8]⟩
abbrev S8x1 : Shape := ⟨2, ![8, 1]⟩
abbrev S1 : Shape := ⟨1, ![1]⟩
abbrev S1x1 : Shape := ⟨2, ![1, 1]⟩
abbrev S_ : Shape := ⟨0, ![]⟩

abbrev nBuf : Space → Nat
  | .hbm => 10
  | .vmem => 7
  | .smem => 0
  | _ => 0

abbrev bufTy : (tb : Table) → Fin (tcTables nBuf tb) → BufTy
  | .hbm, ⟨0, _⟩ => ⟨S8388608x3, .f32⟩
  | .hbm, ⟨1, _⟩ => ⟨S8388608, .i32⟩
  | .hbm, ⟨2, _⟩ => ⟨S3x8388608, .f32⟩
  | .hbm, ⟨3, _⟩ => ⟨S3x256x32768, .f32⟩
  | .hbm, ⟨4, _⟩ => ⟨S256x32768, .i32⟩
  | .hbm, ⟨5, _⟩ => ⟨S2x1x1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S3x8x32768, .f32⟩
  | .local _ .vmem, ⟨1, _⟩ => ⟨S3x8x32768, .f32⟩
  | .local _ .vmem, ⟨2, _⟩ => ⟨S8x32768, .i32⟩
  | .local _ .vmem, ⟨3, _⟩ => ⟨S8x32768, .i32⟩
  | .local _ .vmem, ⟨4, _⟩ => ⟨S1x1x1, .f32⟩
  | .local _ .vmem, ⟨5, _⟩ => ⟨S1x1x1, .f32⟩
  | .local _ .vmem, ⟨6, _⟩ => ⟨S1x1x1, .f32⟩
  | _, _ => ⟨S8388608x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v57 : BitVec 1 := Scalar.cmpi .eq arg1 c15_i32
  let v58 : BitVec 32 := Scalar.extui v57
  let c0_i32_23 : BitVec 32 := 0#32
  let v59 : BitVec 1 := Scalar.cmpi .ne v58 c0_i32_23
  v59

def cc0_transform_0 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S3x8x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x32768 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  transposes_S8388608x3_S3x8388608_1_0 : S8388608x3.Transposes [1, 0] S3x8388608
  shapeCasts_S3x8388608_S3x256x32768 : S3x8388608.ShapeCasts S3x256x32768
  shapeCasts_S8388608_S256x32768 : S8388608.ShapeCasts S256x32768
  inb_S1x1x1_S1x1x1_0_0_0 : ∀ a, (![0, 0, 0] : Fin 3 → Nat) a + S1x1x1.size a ≤ S1x1x1.size a
  h_S1x1x1 : 0 < S1x1x1.numel
  shapeCasts_S1x1x1_S1x1x1 : S1x1x1.ShapeCasts S1x1x1
  inb_S3x8x32768_S1x8x32768_0_0_0 : ∀ a, (![0, 0, 0] : Fin 3 → Nat) a + S1x8x32768.size a ≤ S3x8x32768.size a
  h_S1x8x32768 : 0 < S1x8x32768.numel
  shapeCasts_S1x8x32768_S8x32768 : S1x8x32768.ShapeCasts S8x32768
  inb_S3x8x32768_S1x8x32768_1_0_0 : ∀ a, (![1, 0, 0] : Fin 3 → Nat) a + S1x8x32768.size a ≤ S3x8x32768.size a
  inb_S3x8x32768_S1x8x32768_2_0_0 : ∀ a, (![2, 0, 0] : Fin 3 → Nat) a + S1x8x32768.size a ≤ S3x8x32768.size a
  inb_S8x32768_S8x32768_0_0 : ∀ a, (![0, 0] : Fin 2 → Nat) a + S8x32768.size a ≤ S8x32768.size a
  h_S8x32768 : 0 < S8x32768.numel
  shapeCasts_S8x32768_S8x32768 : S8x32768.ShapeCasts S8x32768
  reduces_S8x32768_S8 : S8x32768.Reduces [1] S8
  shapeCasts_S8_S8x1 : S8.ShapeCasts S8x1
  reduces_S8x1_S1 : S8x1.Reduces [0] S1
  shapeCasts_S1_S1x1 : S1.ShapeCasts S1x1
  shapeCasts_S1x1_S1x1x1 : S1x1.ShapeCasts S1x1x1
  reducesTo_S2x1x1_S_d0_1_2 : S2x1x1.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x8x32768.size a ≤ S3x256x32768.size a
  hwx0_0 : ∀ i : grid0.Coords, EltTy.bits .f32 = 32 ∨ (Rect.block (s := S3x256x32768) S3x8x32768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x32768.size a ≤ S256x32768.size a
  hwx0_1 : ∀ i : grid0.Coords, EltTy.bits .i32 = 32 ∨ (Rect.block (s := S256x32768) S8x32768.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S2x1x1.size a
  hwx0_2 : ∀ i : grid0.Coords, EltTy.bits .f32 = 32 ∨ (Rect.block (s := S2x1x1) S1x1x1.size (cc0_transform_2 i) (hinb0_2 i)).WholeWords (EltTy.packing .f32)

variable [Facts₀]

abbrev win0_0 : Pipeline.Window sig grid0 :=
  Pipeline.Window.ofSpec (Memref.whole main_v1) S3x8x32768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S8x32768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8388608x3 : Shape := ⟨2, ![8388608, 3]⟩
abbrev S8388608 : Shape := ⟨1, ![8388608]⟩
abbrev S3 : Shape := ⟨1, ![3]⟩
abbrev S_ : Shape := ⟨0, ![]⟩
abbrev S8388608x1 : Shape := ⟨2, ![8388608, 1]⟩
abbrev S1x3 : Shape := ⟨2, ![1, 3]⟩

abbrev nBuf : Space → Nat
  | .hbm => 48
  | .vmem => 0
  | .smem => 0
  | _ => 0

abbrev bufTy : (tb : Table) → Fin (tcTables nBuf tb) → BufTy
  | .hbm, ⟨0, _⟩ => ⟨S8388608x3, .f32⟩
  | .hbm, ⟨1, _⟩ => ⟨S8388608, .i32⟩
  | .hbm, ⟨2, _⟩ => ⟨S3, .f32⟩
  | .hbm, ⟨3, _⟩ => ⟨S_, .f32⟩
  | .hbm, ⟨4, _⟩ => ⟨S8388608, .f32⟩
  | .hbm, ⟨5, _⟩ => ⟨S_, .f32⟩
  | .hbm, ⟨6, _⟩ => ⟨S8388608, .f32⟩
  | .hbm, ⟨7, _⟩ => ⟨S8388608, .f32⟩
  | .hbm, ⟨8, _⟩ => ⟨S8388608x1, .f32⟩
  | .hbm, ⟨9, _⟩ => ⟨S8388608x3, .f32⟩
  | .hbm, ⟨10, _⟩ => ⟨S8388608x3, .f32⟩
  | .hbm, ⟨11, _⟩ => ⟨S8388608x3, .f32⟩
  | .hbm, ⟨12, _⟩ => ⟨S_, .f32⟩
  | .hbm, ⟨13, _⟩ => ⟨S8388608, .f32⟩
  | .hbm, ⟨14, _⟩ => ⟨S8388608x1, .f32⟩
  | .hbm, ⟨15, _⟩ => ⟨S8388608x1, .f32⟩
  | .hbm, ⟨16, _⟩ => ⟨S8388608x3, .f32⟩
  | .hbm, ⟨17, _⟩ => ⟨S8388608x3, .f32⟩
  | .hbm, ⟨18, _⟩ => ⟨S8388608x1, .i32⟩
  | .hbm, ⟨19, _⟩ => ⟨S1x3, .i32⟩
  | .hbm, ⟨20, _⟩ => ⟨S8388608x3, .i32⟩
  | .hbm, ⟨21, _⟩ => ⟨S8388608x3, .i32⟩
  | .hbm, ⟨22, _⟩ => ⟨S8388608x3, .i1⟩
  | .hbm, ⟨23, _⟩ => ⟨S8388608x3, .f32⟩
  | .hbm, ⟨24, _⟩ => ⟨S_, .f32⟩
  | .hbm, ⟨25, _⟩ => ⟨S8388608x3, .f32⟩
  | .hbm, ⟨26, _⟩ => ⟨S8388608x3, .f32⟩
  | .hbm, ⟨27, _⟩ => ⟨S_, .f32⟩
  | .hbm, ⟨28, _⟩ => ⟨S8388608x3, .f32⟩
  | .hbm, ⟨29, _⟩ => ⟨S8388608x3, .f32⟩
  | .hbm, ⟨30, _⟩ => ⟨S8388608x3, .f32⟩
  | .hbm, ⟨31, _⟩ => ⟨S_, .f32⟩
  | .hbm, ⟨32, _⟩ => ⟨S8388608, .f32⟩
  | .hbm, ⟨33, _⟩ => ⟨S8388608, .f32⟩
  | .hbm, ⟨34, _⟩ => ⟨S_, .i32⟩
  | .hbm, ⟨35, _⟩ => ⟨S8388608, .i32⟩
  | .hbm, ⟨36, _⟩ => ⟨S8388608, .i1⟩
  | .hbm, ⟨37, _⟩ => ⟨S_, .i32⟩
  | .hbm, ⟨38, _⟩ => ⟨S8388608, .i32⟩
  | .hbm, ⟨39, _⟩ => ⟨S8388608, .i32⟩
  | .hbm, ⟨40, _⟩ => ⟨S8388608, .i32⟩
  | .hbm, ⟨41, _⟩ => ⟨S8388608x1, .i32⟩
  | .hbm, ⟨42, _⟩ => ⟨S8388608, .f32⟩
  | .hbm, ⟨43, _⟩ => ⟨S8388608, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | _, _ => ⟨S8388608x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_call0_cst : Ref sig .tc := ⟨.hbm, 3, rfl⟩
abbrev main_call0_v0 : Ref sig .tc := ⟨.hbm, 4, rfl⟩
abbrev main_call0_cst_0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_cst_1 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_v0 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_v1 : Ref sig .tc := ⟨.hbm, 23, rfl⟩
abbrev main_cst_0 : Ref sig .tc := ⟨.hbm, 24, rfl⟩
abbrev main_v2 : Ref sig .tc := ⟨.hbm, 25, rfl⟩
abbrev main_v3 : Ref sig .tc := ⟨.hbm, 26, rfl⟩
abbrev main_cst_1 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_cst_2 : Ref sig .tc := ⟨.hbm, 31, rfl⟩
abbrev main_v7 : Ref sig .tc := ⟨.hbm, 32, rfl⟩
abbrev main_v8 : Ref sig .tc := ⟨.hbm, 33, rfl⟩
abbrev main_c : Ref sig .tc := ⟨.hbm, 34, rfl⟩
abbrev main_v9 : Ref sig .tc := ⟨.hbm, 35, rfl⟩
abbrev main_v10 : Ref sig .tc := ⟨.hbm, 36, rfl⟩
abbrev main_c_3 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_cst_4 : Ref sig .tc := ⟨.hbm, 44, rfl⟩
abbrev main_v17 : Ref sig .tc := ⟨.hbm, 45, rfl⟩
abbrev main_cst_5 : Ref sig .tc := ⟨.hbm, 46, rfl⟩
abbrev main_v18 : Ref sig .tc := ⟨.hbm, 47, rfl⟩

abbrev nD : Nat := 1
abbrev τ : Topo := Topo.v7x

variable {F : FTy → Type} [FloatOps F]

class Facts₀ : Prop where
  reducesTo_S8388608x3_S8388608_d1 : S8388608x3.ReducesTo [1] S8388608
  h_S_ : 0 < S_.numel
  bcast_S_S8388608 : S_.BroadcastsInDim S8388608 (![] : Fin 0 → Fin S8388608.rank)
  bcast_S8388608_S8388608x1_0 : S8388608.BroadcastsInDim S8388608x1 (![0] : Fin 1 → Fin S8388608x1.rank)
  bcast_S8388608x1_S8388608x3_0_1 : S8388608x1.BroadcastsInDim S8388608x3 (![0, 1] : Fin 2 → Fin S8388608x3.rank)
  bcast_S1x3_S8388608x3_0_1 : S1x3.BroadcastsInDim S8388608x3 (![0, 1] : Fin 2 → Fin S8388608x3.rank)
  bcast_S_S8388608x3 : S_.BroadcastsInDim S8388608x3 (![] : Fin 0 → Fin S8388608x3.rank)
  reducesTo_S8388608_S_d0 : S8388608.ReducesTo [0] S_
  gather_S3_S8388608x1_S8388608_n_0_n_n_0_1_1_wf : GatherDims.WF S3 S8388608x1 S8388608 [] [0] [] [0] [] 1 ![1]

variable [Facts₀]

def gather_S3_S8388608x1_S8388608_n_0_n_n_0_1_1 : GatherDims S3 S8388608x1 S8388608 where
  offsetDims := []
  collapsedSliceDims := [0]
  operandBatchingDims := []
  startIndicesBatchingDims := []
  startIndexMap := [0]
  indexVectorDim := 1
  sliceSizes := ![1]
  wf := gather_S3_S8388608x1_S8388608_n_0_n_n_0_1_1_wf

class Facts : Prop extends Facts₀ where

variable [Facts]
-- ==== Proof.KPieces.lean ====
/-
  What one grid point does to the running partial sum.  The body loads the three class rows of its logits block and
  its label block, forms the weighted per-sample losses, sums them over lanes and then sublanes, and adds the block's
  sum to the accumulator it finds (the zero it has just stored at the first step of a half, else what the step before
  left).  Each case of the body leaves exactly that in the accumulator, and at the last step of a half the same value
  in the output block.
-/
import proofs.«400214_j68633577390300_3_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.KValue

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- Class row k of a logits block: the [1, 8, 32768] slice at offset (k, 0, 0). -/
abbrev row0 (x0 : Vec F S3x8x32768 .f32) : Vec F S1x8x32768 .f32 :=
  View.ld x0 (Rect.unit ![0, 0, 0] ![1, 8, 32768] inb_S3x8x32768_S1x8x32768_0_0_0)
abbrev row1 (x0 : Vec F S3x8x32768 .f32) : Vec F S1x8x32768 .f32 :=
  View.ld x0 (Rect.unit ![1, 0, 0] ![1, 8, 32768] inb_S3x8x32768_S1x8x32768_1_0_0)
abbrev row2 (x0 : Vec F S3x8x32768 .f32) : Vec F S1x8x32768 .f32 :=
  View.ld x0 (Rect.unit ![2, 0, 0] ![1, 8, 32768] inb_S3x8x32768_S1x8x32768_2_0_0)

/-- The accumulator after a point: what it held plus the block's sum of weighted per-sample losses. -/
def blockStep (x0 : Vec F S3x8x32768 .f32) (x1 : Vec F S8x32768 .i32) (acc : Vec F S1x1x1 .f32) : Vec F S1x1x1 .f32 :=
  k0_pay1 (k0_pay4 x1) (k0_pay5 x1) (k0_pay6 (row0 x0) (row1 x0) (row2 x0) x1) (FloatOps.ofBits .f32 0#32) acc

/-- A step inside a half (neither its first nor its last) leaves the accumulator at the step of what it found. -/
theorem sout_B (c : Dev nD) (i : grid0.Coords) (a2 : Memref sig .tc .vmem S3x8x32768 .f32) (h2 : a2.IsWhole)
    (a3 : Memref sig .tc .vmem S8x32768 .i32) (h3 : a3.IsWhole) (a4 : Memref sig .tc .vmem S1x1x1 .f32) (h4 : a4.IsWhole)
    (a5 : Memref sig .tc .vmem S1x1x1 .f32) (h5 : a5.IsWhole) (hc0 : ¬cond0_0 i) (hc1 : ¬cond0_1 i)
    (x0 : Vec F S3x8x32768 .f32) (x1 : Vec F S8x32768 .i32) (xs : Vec F S1x1x1 .f32) :
    sout0_B_0 c i a2 h2 a3 h3 a4 h4 a5 h5 hc0 hc1 x0 x1 xs = blockStep x0 x1 xs := by
  unfold sout0_B_0
  rw [View.read_writes_eq_canon _ _ _ (scover0_B_0 c i a2 h2 a3 h3 a4 h4 a5 h5 hc0 hc1 x0 x1 xs)]
  unfold kernelRun0_B
  dsimp only
  sl_unfold_words
  rw [View.canon_unit_zero hz3]
  simp only [View.readAt_eq_ld, h2.read_unread, h3.read_unread, h5.read_unread, View.ld_unit_zero (S := S1x1x1) hz3,
    View.ld_unit_zero (S := S8x32768) hz2]
  rfl

/-- The last step of a half leaves the accumulator likewise, -/
theorem sout_C (c : Dev nD) (i : grid0.Coords) (a2 : Memref sig .tc .vmem S3x8x32768 .f32) (h2 : a2.IsWhole)
    (a3 : Memref sig .tc .vmem S8x32768 .i32) (h3 : a3.IsWhole) (a4 : Memref sig .tc .vmem S1x1x1 .f32) (h4 : a4.IsWhole)
    (a5 : Memref sig .tc .vmem S1x1x1 .f32) (h5 : a5.IsWhole) (hc0 : ¬cond0_0 i) (hc1 : cond0_1 i)
    (x0 : Vec F S3x8x32768 .f32) (x1 : Vec F S8x32768 .i32) (xs : Vec F S1x1x1 .f32) :
    sout0_C_0 c i a2 h2 a3 h3 a4 h4 a5 h5 hc0 hc1 x0 x1 xs = blockStep x0 x1 xs := by
  unfold sout0_C_0
  rw [View.read_writes_eq_canon _ _ _ (scover0_C_0 c i a2 h2 a3 h3 a4 h4 a5 h5 hc0 hc1 x0 x1 xs)]
  unfold kernelRun0_C
  dsimp only
  sl_unfold_words
  rw [View.canon_unit_zero hz3]
  simp only [View.readAt_eq_ld, h2.read_unread, h3.read_unread, h5.read_unread, View.ld_unit_zero (S := S1x1x1) hz3,
    View.ld_unit_zero (S := S8x32768) hz2]
  rfl

/-- and copies it into the output block. -/
theorem out_C (c : Dev nD) (i : grid0.Coords) (a2 : Memref sig .tc .vmem S3x8x32768 .f32) (h2 : a2.IsWhole)
    (a3 : Memref sig .tc .vmem S8x32768 .i32) (h3 : a3.IsWhole) (a4 : Memref sig .tc .vmem S1x1x1 .f32) (h4 : a4.IsWhole)
    (a5 : Memref sig .tc .vmem S1x1x1 .f32) (h5 : a5.IsWhole) (hc0 : ¬cond0_0 i) (hc1 : cond0_1 i)
    (x0 : Vec F S3x8x32768 .f32) (x1 : Vec F S8x32768 .i32) (xs : Vec F S1x1x1 .f32) :
    out0_C_2 c i a2 h2 a3 h3 a4 h4 a5 h5 hc0 hc1 x0 x1 xs = blockStep x0 x1 xs := by
  unfold out0_C_2
  rw [View.read_writes_eq_canon _ _ _ (cover0_C_2 c i a2 h2 a3 h3 a4 h4 a5 h5 hc0 hc1 x0 x1 xs)]
  unfold kernelRun0_C
  dsimp only
  sl_unfold_words
  rw [View.canon_unit_zero hz3, View.readCov_unit_zero (S := S1x1x1) _ hz3]
  simp only [View.readAt_eq_ld, h2.read_unread, h3.read_unread, h5.read_unread, View.ld_unit_zero (S := S1x1x1) hz3,
    View.ld_unit_zero (S := S8x32768) hz2]
  rfl

/-- The first step of a half stores the zero block and then adds its block's sum to it. -/
theorem sout_A (c : Dev nD) (i : grid0.Coords) (a2 : Memref sig .tc .vmem S3x8x32768 .f32) (h2 : a2.IsWhole)
    (a3 : Memref sig .tc .vmem S8x32768 .i32) (h3 : a3.IsWhole) (a4 : Memref sig .tc .vmem S1x1x1 .f32) (h4 : a4.IsWhole)
    (a5 : Memref sig .tc .vmem S1x1x1 .f32) (h5 : a5.IsWhole) (hc0 : cond0_0 i) (hc1 : ¬cond0_1 i)
    (x0 : Vec F S3x8x32768 .f32) (x1 : Vec F S8x32768 .i32) :
    sout0_A_0 c i a2 h2 a3 h3 a4 h4 a5 h5 hc0 hc1 x0 x1 = blockStep x0 x1 (k0_pay2 (F := F)) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1x1x1) hz3, View.readCov_unit_zero (S := S1x1x1) _ hz3]
  simp only [View.readAt_eq_ld, h2.read_unread, h3.read_unread, View.ld_unit_zero (S := S8x32768) hz2]
  rfl

end Cert.KernelIdeal.KValue

end
-- ==== Proof.Spec.lean ====
/-
  The weighted, label-smoothed cross-entropy of one sample, in the two arrangements the programs compute it in,
  and the totals both programs end with.  For logits c₀ c₁ c₂ and a label word l:

    kernel form     −(A·logp_l + B·(logp₀ + logp₁ + logp₂)) · w_l,   logp_k = c_k − (m + log Σ_j exp (c_j − m))
    reference form  −(Σ_k logp'_k · (A·[l = k] + B)) · w_l,            logp'_k = (c_k − m) − log Σ_j exp (c_j − m)

  with m = max c₀ c₁ c₂, A and B the binary values of 0.9 and 0.1/3 in f32, w the three class weights.  Both totals
  are the sum of the per-sample terms over all 2²³ samples divided by 2²³; the kernel's sum is grouped by grid point
  (h, i), sublane s and lane q, sample n = ((16h + i)·8 + s)·32768 + q.
-/
import Idealize.ShloMosaic.PureOps.Ideal
import Idealize.ShloMosaic.Lib.ValueIdx

noncomputable section

open scoped BigOperators

namespace Cert.Loss

open Idealize.ShloMosaic Idealize.ShloMosaic.ValueIdx

/-- The logits array [2²³, 3] and the label array [2²³]. -/
abbrev SP : Shape := ⟨2, ![8388608, 3]⟩
abbrev SL : Shape := ⟨1, ![8388608]⟩
abbrev S0 : Shape := ⟨0, ![]⟩

/-- 0.9 and 0.1/3 as the f32 words both programs carry, the three class weights 10, 10/3, 5/3 likewise, and 2²³. -/
def cA : EReal := Ideal.ofBits .f32 0x3F666666#32
def cB : EReal := Ideal.ofBits .f32 0x3D088889#32
def w0 : EReal := Ideal.ofBits .f32 0x41200000#32
def w1 : EReal := Ideal.ofBits .f32 0x40555555#32
def w2 : EReal := Ideal.ofBits .f32 0x3FD55555#32
def cN : EReal := Ideal.ofBits .f32 0x4B000000#32

/-- The class weight of a label word in {0, 1, 2} (class 2's for any other word). -/
def wsel (l : BitVec 32) : EReal := if l = 0#32 then w0 else if l = 1#32 then w1 else w2

/-- One sample's term as the kernel computes it. -/
def kterm (c0 c1 c2 : EReal) (l : BitVec 32) : EReal :=
  let m := max (max c0 c1) c2
  let lse := m + Ideal.log (Ideal.exp (c0 - m) + Ideal.exp (c1 - m) + Ideal.exp (c2 - m))
  let p0 := c0 - lse
  let p1 := c1 - lse
  let p2 := c2 - lse
  let sel := if l = 0#32 then p0 else if l = 1#32 then p1 else p2
  (0 - (cA * sel + cB * (p0 + p1 + p2))) * wsel l

/-- The indicator [l = k] as an extended real. -/
def hot (l : BitVec 32) (k : BitVec 32) : EReal := if l = k then 1 else 0

/-- One sample's term as the reference computes it. -/
def rterm (c0 c1 c2 : EReal) (l : BitVec 32) : EReal :=
  let m := max (max c0 c1) c2
  let s0 := c0 - m
  let s1 := c1 - m
  let s2 := c2 - m
  let lg := Ideal.log (Ideal.exp s0 + Ideal.exp s1 + Ideal.exp s2)
  let p0 := s0 - lg
  let p1 := s1 - lg
  let p2 := s2 - lg
  (-(p0 * (cA * hot l 0#32 + cB) + p1 * (cA * hot l 1#32 + cB) + p2 * (cA * hot l 2#32 + cB))) * wsel l

/-- The sample a grid point (h, i), a sublane s and a lane q stand for. -/
def flat (h : Fin 2) (i : Fin 16) (s : Fin 8) (q : Fin 32768) : Fin 8388608 :=
  ⟨((16 * h.val + i.val) * 8 + s.val) * 32768 + q.val, by
    have := h.isLt; have := i.isLt; have := s.isLt; have := q.isLt; omega⟩

/-- The reference's total: the per-sample terms summed over the samples, over 2²³. -/
def rtotal (x : FVec Ideal SP .f32) (l : IVec SL 32) : FVec Ideal S0 .f32 := fun _ =>
  Ideal.div (∑ n : Fin 8388608, rterm (x (ix2 n 0)) (x (ix2 n 1)) (x (ix2 n 2)) (l (ix1 n))) cN

/-- The kernel's total: the same terms in kernel form, grouped by half, step, sublane and lane. -/
def ktotal (x : FVec Ideal SP .f32) (l : IVec SL 32) : FVec Ideal S0 .f32 := fun _ =>
  Ideal.div (∑ h : Fin 2, ∑ i : Fin 16, ∑ s : Fin 8, ∑ q : Fin 32768,
    kterm (x (ix2 (flat h i s q) 0)) (x (ix2 (flat h i s q) 1)) (x (ix2 (flat h i s q) 2)) (l (ix1 (flat h i s q)))) cN

end Cert.Loss

end
-- ==== Proof.LibRowOps.lean ====
/-
  Layout operations and a lane sum read at an index given by coordinates: the column forms that sit beside the
  row forms of the library's layout lemmas.

  * a column [a, 1] broadcast along its unit axis to [a, b] reads, at (p, c), the column's entry p;
  * a vector [a] cast to a column [a, 1] reads, at (i, 0), the vector's entry i;
  * a sum over the second axis of an [a, b] array, read at p, is the sum over n of the entries (p, n);
  * a block of extents [1, m, n] loaded from an [k, m, n] array at offset (i, 0, 0) reads, at (0, r, c), the array's
    entry (i, r, c); likewise a [1, n] row of a [k, n] array and one entry of a vector.
-/
import Idealize.ShloMosaic.Lib.ValueLayout
import Idealize.ShloMosaic.Lib.Pipeline.FrameBody
import Idealize.ShloMosaic.PureOps.Ideal.Laws

noncomputable section

namespace Cert.RowOps

open Idealize.ShloMosaic Idealize.ShloMosaic.ValueIdx

variable {α : Type}

/-- A column broadcast along its unit axis: entry (p, c) of the result is entry p of the column. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector cast to a column: entry (i, 0) of the column is entry i of the vector. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum over the second axis of an [a, b] array of extended reals, read at p: the sum over n of entry (p, n). -/
theorem laneSum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ n : Fin b, src (ix2 p n) := by
  refine (Ideal.multiReduction_add_single src 0x00000000#32 h hφ hacc (ix1 p)).trans ?_
  refine Finset.sum_congr rfl fun n _ => congrArg src (funext fun c => Fin.ext ?_)
  show h.liftVal (ix1 p) n.val c = _
  match c with
  | ⟨0, _⟩ => simp [Shape.Reduces.liftVal]
  | ⟨1, _⟩ => simp [Shape.Reduces.liftVal]

/-- A load through a unit-stride rectangle reads, at j, the array at the index k whose coordinates are the
    rectangle's offsets plus j's. -/
theorem ld_unit_apply {S : Shape} {Val : EltTy → Type} {e : EltTy} (X : S.Idx → Val e)
    (off size : Fin S.rank → Nat) (inb : ∀ a, off a + size a ≤ S.size a)
    (j : (Rect.unit off size inb).shape.Idx) (k : S.Idx) (hk : ∀ a, (k a).val = off a + (j a).val) :
    View.ld X (Rect.unit off size inb) j = X k := by
  show X ((Rect.unit off size inb).idx j) = X k
  refine congrArg X (funext fun a => Fin.ext ?_)
  rw [hk a]
  show off a + 1 * (j a).val = off a + (j a).val
  rw [Nat.one_mul]

end Cert.RowOps

end
-- ==== Proof.KStep.lean ====
/-
  One grid point's step read at its one index, over the extended reals: the accumulator it finds plus the sum over
  the block's 8 sublanes and 32768 lanes of the per-sample terms.  The elementwise operations read entry by entry;
  the lane sum and then the sublane sum turn the [8, 32768] array of weighted losses into one number; the two label
  tests (l = 0, l = 1) select the class whose log-probability and weight enter.
-/
import proofs.«400214_j68633577390300_3_alg».proof.Proof.KPieces
import proofs.«400214_j68633577390300_3_alg».proof.Proof.Spec
import proofs.«400214_j68633577390300_3_alg».proof.Proof.LibRowOps
import Idealize.ShloMosaic.Lib.ValueIdx
import Idealize.ShloMosaic.Lib.ValueLayout
import Idealize.ShloMosaic.PureOps.Ideal.Laws

noncomputable section

open scoped BigOperators
open Idealize.ShloMosaic Idealize.ShloMosaic.ValueIdx

namespace Cert.KernelIdeal.KValue

open Cert.KernelIdeal Cert.KernelIdeal.Gen Cert.Loss

/-- The smoothed log-likelihood of one sample before the sign and the weight. -/
def core (c0 c1 c2 : EReal) (l : BitVec 32) : EReal :=
  let m := max (max c0 c1) c2
  let lse := m + Ideal.log (Ideal.exp (c0 - m) + Ideal.exp (c1 - m) + Ideal.exp (c2 - m))
  let p0 := c0 - lse
  let p1 := c1 - lse
  let p2 := c2 - lse
  let sel := if l = 0#32 then p0 else if l = 1#32 then p1 else p2
  cA * sel + cB * (p0 + p1 + p2)

theorem kterm_eq_core (c0 c1 c2 : EReal) (l : BitVec 32) : kterm c0 c1 c2 l = (0 - core c0 c1 c2 l) * wsel l := rfl

theorem sel_eq {α : Type} (a b : BitVec 32) (x y : α) : Scalar.select (IntOp.cmpi .eq a b) x y = if a = b then x else y := by
  by_cases h : a = b
  · subst h; simp [IntOp.cmpi, Scalar.select]
  · rw [if_neg h]
    have hb : (a == b) = false := by simpa using h
    simp [IntOp.cmpi, Scalar.select, hb]

theorem exp_at {s : Shape} {φ : FTy} (v : FVec Ideal s φ) (i : s.Idx) : exp v i = Ideal.exp (v i) := rfl
theorem log_at {s : Shape} {φ : FTy} (v : FVec Ideal s φ) (i : s.Idx) : log v i = Ideal.log (v i) := rfl
theorem cmpi_at {s : Shape} {w : Nat} (p : CmpIPredicate) (a b : IVec s w) (i : s.Idx) : cmpi p a b i = IntOp.cmpi p (a i) (b i) := rfl

theorem pay6_apply (r0 r1 r2 : Vec Ideal S1x8x32768 .f32) (x1 : Vec Ideal S8x32768 .i32) (s : Fin 8) (q : Fin 32768) :
    k0_pay6 (F := Ideal) r0 r1 r2 x1 (ix2 s q)
      = core (r0 (ix3 (0 : Fin 1) s q)) (r1 (ix3 (0 : Fin 1) s q)) (r2 (ix3 (0 : Fin 1) s q)) (x1 (ix2 s q)) := by
  have e0 := shapeCast_1ab_ab_apply r0 shapeCasts_S1x8x32768_S8x32768 s q
  have e1 := shapeCast_1ab_ab_apply r1 shapeCasts_S1x8x32768_S8x32768 s q
  have e2 := shapeCast_1ab_ab_apply r2 shapeCasts_S1x8x32768_S8x32768 s q
  unfold k0_pay6 k0_pay5 k0_pay4 k0_pay3 core
  simp only [addf_apply, mulf_apply, subf_apply, maximumf_apply, select_apply, broadcast_apply, exp_at, log_at, cmpi_at, shapeCast_self, sel_eq, e0, e1, e2]
  rfl

/-- A [1, 1] array cast to [1, 1, 1] reads its one entry, -/
theorem cast_11_111 {α : Type} (w : S1x1.Idx → α) (h : S1x1.ShapeCasts S1x1x1) (y : S1x1x1.Idx) :
    shapeCast S1x1x1 w h y = w (ix2 (0 : Fin 1) (0 : Fin 1)) :=
  shapeCast_apply w h y _ (by
    have h1 : (S1x1.rowMajor (ix2 (0 : Fin 1) (0 : Fin 1))).val < 1 := (S1x1.rowMajor _).isLt
    have h2 : (S1x1x1.rowMajor y).val < 1 := (S1x1x1.rowMajor y).isLt
    omega)

/-- The tail of the body at its one index: the accumulator plus the sum, over sublanes and lanes, of the negated
    smoothed log-likelihood times the selected class weight. -/
theorem pay1_apply (v27 v29 : IVec S8x32768 1) (v38 : FVec Ideal S8x32768 .f32) (a : Vec Ideal S1x1x1 .f32) (y : S1x1x1.Idx) :
    k0_pay1 (F := Ideal) v27 v29 v38 (FloatOps.ofBits .f32 0#32) a y
      = a y + ∑ s : Fin 8, ∑ q : Fin 32768,
          (0 - v38 (ix2 s q)) * Scalar.select (v27 (ix2 s q)) w0 (Scalar.select (v29 (ix2 s q)) w1 w2) := by
  unfold k0_pay1
  simp only [shapeCast_self, addf_apply]
  refine congrArg (a y + ·) ?_
  refine (cast_11_111 _ _ y).trans ?_
  refine (Cert.RowOps.shapeCast_a_a1_apply _ _ (0 : Fin 1) (0 : Fin 1)).trans ?_
  refine (Ideal.multiReduction_add_total _ _ _ (fun b => by fin_cases b; rfl) _ _ _).trans ?_
  rw [sum_idx2]
  refine Finset.sum_congr rfl fun s _ => ?_
  rw [Fin.sum_univ_one]
  refine (Cert.RowOps.shapeCast_a_a1_apply _ _ s (0 : Fin 1)).trans ?_
  refine (Cert.RowOps.laneSum_apply _ _ _ _ s).trans ?_
  refine Finset.sum_congr rfl fun q _ => ?_
  simp only [mulf_apply, subf_apply, select_apply, broadcast_apply]
  have hzero : (FloatOps.ofBits (F := Ideal) FTy.f32 0#32 : EReal) = 0 := Ideal.ofBits_zero_f32
  rw [hzero]
  rfl

/-- One grid point's step at its one index: the accumulator plus the block's sum of per-sample terms, sample (s, q)
    of the block reading class row k at (k, s, q) and its label at (s, q). -/
theorem blockStep_apply (x0 : Vec Ideal S3x8x32768 .f32) (x1 : Vec Ideal S8x32768 .i32) (a : Vec Ideal S1x1x1 .f32)
    (y : S1x1x1.Idx) :
    blockStep (F := Ideal) x0 x1 a y = a y + ∑ s : Fin 8, ∑ q : Fin 32768,
      kterm (x0 (ix3 (0 : Fin 3) s q)) (x0 (ix3 (1 : Fin 3) s q)) (x0 (ix3 (2 : Fin 3) s q)) (x1 (ix2 s q)) := by
  unfold blockStep
  refine (pay1_apply _ _ _ a y).trans ?_
  refine congrArg (a y + ·) ?_
  refine Finset.sum_congr rfl fun s _ => Finset.sum_congr rfl fun q _ => ?_
  rw [pay6_apply, kterm_eq_core]
  have r0e : row0 x0 (ix3 (0 : Fin 1) s q) = x0 (ix3 (0 : Fin 3) s q) :=
    Cert.RowOps.ld_unit_apply x0 _ _ _ _ _ (fun a => by fin_cases a <;> simp)
  have r1e : row1 x0 (ix3 (0 : Fin 1) s q) = x0 (ix3 (1 : Fin 3) s q) :=
    Cert.RowOps.ld_unit_apply x0 _ _ _ _ _ (fun a => by fin_cases a <;> simp)
  have r2e : row2 x0 (ix3 (0 : Fin 1) s q) = x0 (ix3 (2 : Fin 3) s q) :=
    Cert.RowOps.ld_unit_apply x0 _ _ _ _ _ (fun a => by fin_cases a <;> simp)
  rw [r0e, r1e, r2e]
  unfold k0_pay4 k0_pay5 k0_pay3 wsel
  simp only [cmpi_at, shapeCast_self, broadcast_apply, sel_eq]

end Cert.KernelIdeal.KValue

end
-- ==== Proof.KAccum.lean ====
/-
  The running partial sum across the grid.  The 32 grid points run in order; point n belongs to half n / 16 and is
  step n % 16 of it.  The accumulator is zeroed at step 0 of each half and gains one block's sum per step, so after
  point n it holds the sum of the block sums of points n − n % 16 … n; at step 15 that value is also what the half's
  output block receives.
-/
import proofs.«400214_j68633577390300_3_alg».proof.Proof.KStep

noncomputable section

open scoped BigOperators
open Idealize.ShloMosaic Idealize.ShloMosaic.ValueIdx Idealize.ShloMosaic.TcCoe Idealize.SL.Sem

namespace Cert.KernelIdeal.KValue

open Cert.KernelIdeal Cert.KernelIdeal.Gen Cert.Loss

variable (m : (ℓ : Loc nD τ sig) → Buf (Elt Ideal) ℓ)

/-- The logits block and the label block of grid point t, at their literal types. -/
abbrev xblk (c : Dev nD) (t : Fin cfg0.N) : Vec Ideal S3x8x32768 .f32 := iblk m c 0 t
abbrev lblk (c : Dev nD) (t : Fin cfg0.N) : Vec Ideal S8x32768 .i32 := iblk m c 1 t

/-- The sum of the per-sample terms of the block of grid point k (zero past the grid). -/
def bs (c : Dev nD) (k : ℕ) : EReal :=
  if hk : k < cfg0.N then
    ∑ s : Fin 8, ∑ q : Fin 32768, kterm (xblk m c ⟨k, hk⟩ (ix3 (0 : Fin 3) s q)) (xblk m c ⟨k, hk⟩ (ix3 (1 : Fin 3) s q))
      (xblk m c ⟨k, hk⟩ (ix3 (2 : Fin 3) s q)) (lblk m c ⟨k, hk⟩ (ix2 s q))
  else 0

theorem step_eq (c : Dev nD) (t : Fin cfg0.N) (a : Vec Ideal S1x1x1 .f32) (y : S1x1x1.Idx) :
    blockStep (F := Ideal) (xblk m c t) (lblk m c t) a y = a y + bs m c t.val := by
  rw [blockStep_apply]
  unfold bs
  rw [dif_pos t.isLt]

/-- The zero block the first step of a half stores. -/
theorem pay2_apply (y : S1x1x1.Idx) : k0_pay2 (F := Ideal) y = 0 := by
  unfold k0_pay2
  simp only [shapeCast_self, broadcast_apply]
  exact Ideal.ofBits_zero_f32

/-- After point n the accumulator holds the block sums of its half so far. -/
theorem acc_eq (c : Dev nD) : ∀ (n : ℕ) (h : n < cfg0.N) (y : S1x1x1.Idx),
    (outsAt0 m c n h).2 y = ∑ j ∈ Finset.range (n % 16 + 1), bs m c (n - n % 16 + j)
  | 0, h, y => by
    rw [outsAt0_A m c ⟨0, h⟩ rfl (by show ¬(0 % 16 = 15); decide)]
    dsimp only
    rw [sout_A]
    refine (step_eq m c ⟨0, h⟩ _ y).trans ?_
    rw [pay2_apply, zero_add]
    simp
  | n + 1, h, y => by
    have hN : cfg0.N = 32 := N_0
    by_cases h0 : (n + 1) % 16 = 0
    · have h1 : ¬(n + 1) % 16 = 15 := by omega
      rw [outsAt0_A m c ⟨n + 1, h⟩ h0 h1]
      dsimp only
      rw [sout_A]
      refine (step_eq m c ⟨n + 1, h⟩ _ y).trans ?_
      rw [pay2_apply, zero_add, h0]
      simp
    · have ih := acc_eq c n (Nat.lt_of_succ_lt h) y
      have hm : (n + 1) % 16 = n % 16 + 1 := by omega
      have hrhs : ∑ j ∈ Finset.range ((n + 1) % 16 + 1), bs m c (n + 1 - (n + 1) % 16 + j)
          = (∑ j ∈ Finset.range (n % 16 + 1), bs m c (n - n % 16 + j)) + bs m c (n + 1) := by
        rw [hm, Finset.sum_range_succ]
        congr 1
        · refine Finset.sum_congr rfl fun j _ => ?_
          congr 1; omega
        · congr 1; omega
      rw [hrhs, ← ih]
      by_cases h1 : (n + 1) % 16 = 15
      · rw [outsAt0_C m c ⟨n + 1, h⟩ h0 h1]
        dsimp only
        rw [sout_C]
        exact step_eq m c ⟨n + 1, h⟩ _ y
      · rw [outsAt0_B m c ⟨n + 1, h⟩ h0 h1]
        dsimp only
        rw [sout_B]
        exact step_eq m c ⟨n + 1, h⟩ _ y

/-- At the last step of a half the output block receives the accumulator's value. -/
theorem out_eq (c : Dev nD) (t : Fin cfg0.N) (h15 : t.val % 16 = 15) (y : S1x1x1.Idx) :
    (outsAt0 m c t.val t.isLt).1 y = ∑ j ∈ Finset.range 16, bs m c (t.val - 15 + j) := by
  have h0 : ¬t.val % 16 = 0 := by omega
  have e := acc_eq m c t.val t.isLt y
  rw [outsAt0_C m c t h0 h15] at e ⊢
  dsimp only at e ⊢
  rw [sout_C] at e
  rw [out_C, e, h15]

end Cert.KernelIdeal.KValue

end
-- ==== Proof.KRun.lean ====
/-
  The kernel's result as a function of its arguments.  The region's output array [2, 1, 1] ends holding, at h, the
  sum of the sixteen block sums of half h (the last step of the half writes its accumulator back, and those two
  blocks cover the array).  The host then adds the two entries to zero and divides by 2²³.  A block's entry (k, s, q)
  at grid point t is logit k of sample (8t + s)·32768 + q (the host transposed the logits and split the sample axis
  into 256 rows of 32768 before the region), and its label entry (s, q) is that sample's label; so the result is the
  kernel-form total of the specification.
-/
import proofs.«400214_j68633577390300_3_alg».proof.Proof.KAccum
import Idealize.ShloMosaic.Lib.StableHlo.Run

set_option maxRecDepth 16384

noncomputable section

open scoped BigOperators
open Idealize.ShloMosaic Idealize.ShloMosaic.ValueIdx Idealize.ShloMosaic.TcCoe Idealize.SL.Sem
open Idealize.ShloMosaic.Pipeline (Dat)

namespace Cert.KernelIdeal.KValue

open Cert.KernelIdeal Cert.KernelIdeal.Gen Cert.Loss

variable (m : (ℓ : Loc nD τ sig) → Buf (Elt Ideal) ℓ) (ρ : Dev nD → PrngReg)

/-- The two partial sums: half h's is the sum of its sixteen block sums. -/
def result (c : Dev nD) : FVec Ideal S2x1x1 .f32 :=
  fun idx => ∑ j ∈ Finset.range 16, bs m c (16 * (idx 0).val + j)

theorem idx2_facts : ∀ t : Fin cfg0.N, win0_2.index t 0 = t.val / 16 :=
  (by decide +kernel : ∀ t : Fin grid0.N, win0_2.index t 0 = t.val / 16)
theorem xsize2_facts : ∀ t : Fin cfg0.N, win0_2.xsize (grid0.coords t) 0 = 1 :=
  (by decide +kernel : ∀ t : Fin grid0.N, win0_2.xsize (grid0.coords t) 0 = 1)

theorem flushed_eq (c : Dev nD) (t : Fin cfg0.N) (hf : (cfg0.win 2).flush t = true) :
    (dats m 0 c).flushed 2 t = ((cfg0.win 2).blk t).view.read (Elt Ideal) (result m c) := by
  have h15 := (flush0_2 t).mp hf
  funext j
  show (cfg0.win 2).cut (grid0.coords t) ((dats m 0 c).after 2 t) j = _
  rw [after0_2]
  show (outsAt0 m c t.val t.isLt).1 _ = _
  rw [out_eq m c t h15, View.read_apply]
  show _ = result m c (((cfg0.win 2).blk t).view.emb j)
  unfold result
  have hj : (j 0).val < 1 := lt_of_lt_of_eq (j 0).isLt (xsize2_facts t)
  have he : ((((cfg0.win 2).blk t).view.emb j) 0).val = t.val / 16 := by
    show win0_2.index t 0 * 1 + 1 * (j 0).val = _
    rw [idx2_facts t]; omega
  rw [he]
  refine Finset.sum_congr rfl fun i _ => ?_
  congr 1; omega

/-- The logits as the region finds them: transposed to [3, 2²³] and split into [3, 256, 32768]. -/
theorem v1_eq (c : Dev nD) : (V m c main_v1 : FVec Ideal S3x256x32768 .f32)
    = shapeCast S3x256x32768 (transpose S3x8388608 [1, 0] (m ((c : Thread nD τ).loc main_arg0)) transposes_S8388608x3_S3x8388608_1_0)
        shapeCasts_S3x8388608_S3x256x32768 := by
  show StableHlo.after hostOps0 (fun b => m (c, b)) (Proc.devRef .tc main_v1) = _
  after_results
  rfl

/-- The labels as the region finds them: split into [256, 32768]. -/
theorem v2_eq (c : Dev nD) : (V m c main_v2 : IVec S256x32768 32)
    = shapeCast S256x32768 (m ((c : Thread nD τ).loc main_arg1)) shapeCasts_S8388608_S256x32768 := by
  show StableHlo.after hostOps0 (fun b => m (c, b)) (Proc.devRef .tc main_v2) = _
  after_results
  rfl

theorem idx0_facts : ∀ t : Fin cfg0.N, win0_0.index t 0 = 0 ∧ win0_0.index t 1 = t.val ∧ win0_0.index t 2 = 0 :=
  (by decide +kernel : ∀ t : Fin grid0.N, win0_0.index t 0 = 0 ∧ win0_0.index t 1 = t.val ∧ win0_0.index t 2 = 0)
theorem idx1_facts : ∀ t : Fin cfg0.N, win0_1.index t 0 = t.val ∧ win0_1.index t 1 = 0 :=
  (by decide +kernel : ∀ t : Fin grid0.N, win0_1.index t 0 = t.val ∧ win0_1.index t 1 = 0)

/-- The sample that sublane s and lane q of grid point t stand for. -/
def samp (t : Fin cfg0.N) (s : Fin 8) (q : Fin 32768) : Fin 8388608 :=
  ⟨(t.val * 8 + s.val) * 32768 + q.val, by
    have hN : cfg0.N = 32 := N_0
    have := t.isLt; have := s.isLt; have := q.isLt; omega⟩

theorem xblk_apply (c : Dev nD) (t : Fin cfg0.N) (k : Fin 3) (s : Fin 8) (q : Fin 32768) :
    xblk m c t (ix3 k s q) = m ((c : Thread nD τ).loc main_arg0) (ix2 (samp t s q) k) := by
  unfold xblk iblk
  rw [View.read_apply]
  show V m c main_v1 (((cfg0.win 0).blk t).view.emb (ix3 k s q)) = _
  rw [v1_eq]
  obtain ⟨h0, h1, h2⟩ := idx0_facts t
  refine (shapeCast_apply _ _ _ (ix2 k (samp t s q)) ?_).trans (transpose_ix2_apply _ _ k (samp t s q))
  rw [Shape.rowMajor_val_two, Shape.rowMajor_val_three]
  show k.val * 8388608 + ((t.val * 8 + s.val) * 32768 + q.val)
    = ((win0_0.index t 0 * 3 + 1 * k.val) * 256 + (win0_0.index t 1 * 8 + 1 * s.val)) * 32768 + (win0_0.index t 2 * 32768 + 1 * q.val)
  rw [h0, h1, h2]
  omega

theorem lblk_apply (c : Dev nD) (t : Fin cfg0.N) (s : Fin 8) (q : Fin 32768) :
    lblk m c t (ix2 s q) = m ((c : Thread nD τ).loc main_arg1) (ix1 (samp t s q)) := by
  unfold lblk iblk
  rw [View.read_apply]
  show V m c main_v2 (((cfg0.win 1).blk t).view.emb (ix2 s q)) = _
  rw [v2_eq]
  obtain ⟨h0, h1⟩ := idx1_facts t
  refine shapeCast_apply _ _ _ (ix1 (samp t s q)) ?_
  rw [Shape.rowMajor_val_one, Shape.rowMajor_val_two]
  show (t.val * 8 + s.val) * 32768 + q.val = (win0_1.index t 0 * 8 + 1 * s.val) * 32768 + (win0_1.index t 1 * 32768 + 1 * q.val)
  rw [h0, h1]
  omega

theorem win2_facts : ∀ t : Fin cfg0.N, win0_2.index t 0 = t.val / 16 ∧ win0_2.index t 1 = 0 ∧ win0_2.index t 2 = 0
    ∧ win0_2.xsize (grid0.coords t) 0 = 1 ∧ win0_2.xsize (grid0.coords t) 1 = 1 ∧ win0_2.xsize (grid0.coords t) 2 = 1 :=
  (by decide +kernel : ∀ t : Fin grid0.N, win0_2.index t 0 = t.val / 16 ∧ win0_2.index t 1 = 0 ∧ win0_2.index t 2 = 0
    ∧ win0_2.xsize (grid0.coords t) 0 = 1 ∧ win0_2.xsize (grid0.coords t) 1 = 1 ∧ win0_2.xsize (grid0.coords t) 2 = 1)

/-- Entry h of the output array lies in the block the last step of half h writes back. -/
theorem cover (c : Dev nD) (i : ((cfg0.win 2).arr.view.loc (c.tc : Thread nD τ)).2.ty.Idx) :
    ∃ t : Fin cfg0.N, (cfg0.win 2).flush t = true ∧ i ∈ ((cfg0.win 2).blk t).view.set := by
  have h0 : (i 0 : Nat) < 2 := (i 0).isLt
  have h1 : (i 1 : Nat) < 1 := (i 1).isLt
  have h2 : (i 2 : Nat) < 1 := (i 2).isLt
  have hN : cfg0.N = 32 := N_0
  have ht : 16 * (i 0 : Nat) + 15 < cfg0.N := by omega
  refine ⟨⟨16 * (i 0 : Nat) + 15, ht⟩, (flush0_2 _).mpr (by show (16 * (i 0 : Nat) + 15) % 16 = 15; omega), ?_⟩
  obtain ⟨f0, f1, f2, g0, g1, g2⟩ := win2_facts ⟨16 * (i 0 : Nat) + 15, ht⟩
  show i ∈ ((View.whole main_v3).slice (win0_2.rect ⟨16 * (i 0 : Nat) + 15, ht⟩)).set
  rw [View.set_slice_whole, Rect.mem_set_unit]
  intro a
  match a with
  | ⟨0, _⟩ =>
    show win0_2.index ⟨16 * (i 0 : Nat) + 15, ht⟩ 0 * 1 ≤ (i 0 : Nat) ∧ (i 0 : Nat) < win0_2.index ⟨16 * (i 0 : Nat) + 15, ht⟩ 0 * 1 + win0_2.xsize (grid0.coords ⟨16 * (i 0 : Nat) + 15, ht⟩) 0
    rw [f0, g0]; dsimp only; omega
  | ⟨1, _⟩ =>
    show win0_2.index ⟨16 * (i 0 : Nat) + 15, ht⟩ 1 * 1 ≤ (i 1 : Nat) ∧ (i 1 : Nat) < win0_2.index ⟨16 * (i 0 : Nat) + 15, ht⟩ 1 * 1 + win0_2.xsize (grid0.coords ⟨16 * (i 0 : Nat) + 15, ht⟩) 1
    rw [f1, g1]; omega
  | ⟨2, _⟩ =>
    show win0_2.index ⟨16 * (i 0 : Nat) + 15, ht⟩ 2 * 1 ≤ (i 2 : Nat) ∧ (i 2 : Nat) < win0_2.index ⟨16 * (i 0 : Nat) + 15, ht⟩ 2 * 1 + win0_2.xsize (grid0.coords ⟨16 * (i 0 : Nat) + 15, ht⟩) 2
    rw [f2, g2]; omega

/-- So the output array ends holding the two partial sums. -/
theorem final (c : Dev nD) : (dats m 0 c).arrAt 2 cfg0.N = result m c :=
  (dats m 0 c).arrAt_eq_of_cover 2 (result m c) (flushed_eq m c) (cover c)

/-- A sum over the [2, 1, 1] index set is the sum over its first coordinate. -/
theorem sum_211 {M : Type*} [AddCommMonoid M] (f : S2x1x1.Idx → M) :
    ∑ i, f i = ∑ h : Fin 2, f (ix3 h (0 : Fin 1) (0 : Fin 1)) := by
  let e : S2x1x1.Idx ≃ Fin 2 :=
    { toFun := fun i => i 0
      invFun := fun h => ix3 h (0 : Fin 1) (0 : Fin 1)
      left_inv := fun i => by
        have h1 : (i 1 : Nat) < 1 := (i 1).isLt
        have h2 : (i 2 : Nat) < 1 := (i 2).isLt
        funext a
        match a with
        | ⟨0, _⟩ => rfl
        | ⟨1, _⟩ => exact Fin.ext (by show 0 = (i 1 : Nat); omega)
        | ⟨2, _⟩ => exact Fin.ext (by show 0 = (i 2 : Nat); omega)
      right_inv := fun _ => rfl }
  rw [← Equiv.sum_comp e.symm f]
  rfl

theorem samp_eq (h : Fin 2) (i : Fin 16) (ht : 16 * h.val + i.val < cfg0.N) (s : Fin 8) (q : Fin 32768) :
    samp ⟨16 * h.val + i.val, ht⟩ s q = flat h i s q := Fin.ext (by show (_ * 8 + _) * 32768 + _ = _; rfl)

/-- The program's result: the two partial sums added and divided by 2²³ is the kernel-form total. -/
theorem tail_total (c : Dev nD) : Pipeline.afterTail₀ cfgs (dats m) 0 (V0 m) [hostOps1] c main_v5
    = ktotal (m ((c : Thread nD τ).loc main_arg0)) (m ((c : Thread nD τ).loc main_arg1)) := by
  unfold Pipeline.afterTail₀
  show StableHlo.after hostOps1 _ (Proc.devRef .tc main_v5) = _
  after_results
  rw [show Pipeline.withArrays (cfgs 0).spec c (V0 m c) (fun w => (dats m 0 c).arrAt w (cfgs 0).N) (Proc.devRef .tc main_v3)
      = result m c from (Pipeline.withArrays_arr spec0 launch0.win.arr_inj c _ _ 2).trans (final m c)]
  funext z
  show Ideal.div (Ideal.hostReduceAdd reducesTo_S2x1x1_S_d0_1_2 (result m c) (Ideal.ofBits .f32 0x00000000#32) z) cN = _
  rw [Ideal.hostReduceAdd_total _ (fun b => b.elim0), Ideal.ofBits_zero_f32, zero_add, sum_211]
  unfold ktotal
  refine congrArg (Ideal.div · cN) ?_
  refine Finset.sum_congr rfl fun h _ => ?_
  unfold result
  rw [Finset.sum_range]
  refine Finset.sum_congr rfl fun i _ => ?_
  have hN : cfg0.N = 32 := N_0
  have ht : 16 * h.val + i.val < cfg0.N := by have := h.isLt; have := i.isLt; omega
  show bs m c (16 * h.val + i.val) = _
  unfold bs
  rw [dif_pos ht]
  refine Finset.sum_congr rfl fun s _ => Finset.sum_congr rfl fun q _ => ?_
  rw [xblk_apply, xblk_apply, xblk_apply, lblk_apply, samp_eq]

/-- The run, read: the result at the kernel-form total of the arguments, the arguments unchanged. -/
theorem run : θ_run defs (onTc (τ := τ) (main (F := Ideal))) ⟨m, fun _ => 0, ρ⟩ fun r => ∀ c : Dev nD,
      r.2.mem ((c.tc : Thread nD τ).loc main_v5) = ktotal (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v5 (Pipeline.mem_restRefs_of main_v5 (by decide) (by decide))).trans (tail_total m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.KValue
end
-- ==== Proof.RefTerm.lean ====
/-
  The reference's result as ONE pure term of its two argument arrays: the log-softmax of the logits, the one-hot
  rows of the labels, the smoothed targets A·onehot + B, the per-sample sums, the gathered class weights, the total
  over the samples and the division by 2²³ — each host operation applied to the ones before it, in program order.
-/
import proofs.«400214_j68633577390300_3_alg».proof.ReferenceIdeal

noncomputable section

namespace Cert.ReferenceIdeal.RefValue

open Idealize.ShloMosaic Cert.ReferenceIdeal

variable {F : FTy → Type} [FloatOps F] [Facts]
open Facts₀ Facts

/-- Row-wise log-softmax: x − max − log Σ exp (x − max), the maximum and the sum along the class axis. -/
def logSoftmax (x : FVec F S8388608x3 .f32) : FVec F S8388608x3 .f32 :=
  let cst : FVec F S_ .f32 := constant S_ .f32 0xFF800000#32
  let v0 : FVec F S8388608 .f32 := Host.reduce FloatOps.maximumf x cst reducesTo_S8388608x3_S8388608_d1 h_S_
  let cst_0 : FVec F S_ .f32 := constant S_ .f32 0xFF800000#32
  let v1 : FVec F S8388608 .f32 := broadcastInDim S8388608 ![] bcast_S_S8388608 cst_0
  let v2 : FVec F S8388608 .f32 := maximumf v1 v0
  let v3 : FVec F S8388608x1 .f32 := broadcastInDim S8388608x1 ![0] bcast_S8388608_S8388608x1_0 v2
  let v4 : FVec F S8388608x3 .f32 := broadcastInDim S8388608x3 ![0, 1] bcast_S8388608x1_S8388608x3_0_1 v3
  let v5 : FVec F S8388608x3 .f32 := subf x v4
  let v6 : FVec F S8388608x3 .f32 := Host.exp v5
  let cst_1 : FVec F S_ .f32 := constant S_ .f32 0x00000000#32
  let v7 : FVec F S8388608 .f32 := Host.reduceAdd v6 cst_1 reducesTo_S8388608x3_S8388608_d1 h_S_
  let v8 : FVec F S8388608x1 .f32 := broadcastInDim S8388608x1 ![0] bcast_S8388608_S8388608x1_0 v7
  let v9 : FVec F S8388608x1 .f32 := Host.log v8
  let v10 : FVec F S8388608x3 .f32 := broadcastInDim S8388608x3 ![0, 1] bcast_S8388608x1_S8388608x3_0_1 v9
  subf v5 v10

/-- The one-hot rows of the labels: entry (n, k) is 1 when label n is k, else 0. -/
def oneHot (l : IVec S8388608 32) : FVec F S8388608x3 .f32 :=
  let v0 : IVec S8388608x1 32 := broadcastInDim S8388608x1 ![0] bcast_S8388608_S8388608x1_0 l
  let v1 : IVec S1x3 32 := iotaInDim S1x3 32 1
  let v2 : IVec S8388608x3 32 := broadcastInDim S8388608x3 ![0, 1] bcast_S8388608x1_S8388608x3_0_1 v0
  let v3 : IVec S8388608x3 32 := broadcastInDim S8388608x3 ![0, 1] bcast_S1x3_S8388608x3_0_1 v1
  let v4 : IVec S8388608x3 1 := cmpi .eq v2 v3
  uitofp .f32 v4

/-- The class weight of every sample: the weight table gathered at the label (a negative label wrapped by 3). -/
def weights (l : IVec S8388608 32) : FVec F S8388608 .f32 :=
  let cst : FVec F S3 .f32 := fun i => FloatOps.ofBits .f32 (lit0 (S3.rowMajor i))
  let c : IVec S_ 32 := constantI S_ 32 0#32
  let v9 : IVec S8388608 32 := broadcastInDim S8388608 ![] bcast_S_S8388608 c
  let v10 : IVec S8388608 1 := cmpi .slt l v9
  let c_3 : IVec S_ 32 := constantI S_ 32 3#32
  let v11 : IVec S8388608 32 := broadcastInDim S8388608 ![] bcast_S_S8388608 c_3
  let v12 : IVec S8388608 32 := addi l v11
  let v13 : IVec S8388608 32 := select v10 v12 l
  let v14 : IVec S8388608x1 32 := broadcastInDim S8388608x1 ![0] bcast_S8388608_S8388608x1_0 v13
  Host.gather gather_S3_S8388608x1_S8388608_n_0_n_n_0_1_1 cst v14

/-- The reference's result of its arguments. -/
def refTerm (x : FVec F S8388608x3 .f32) (l : IVec S8388608 32) : FVec F S_ .f32 :=
  let v0 : FVec F S8388608x3 .f32 := logSoftmax x
  let v1 : FVec F S8388608x3 .f32 := oneHot l
  let cst_0 : FVec F S_ .f32 := constant S_ .f32 0x3F666666#32
  let v2 : FVec F S8388608x3 .f32 := broadcastInDim S8388608x3 ![] bcast_S_S8388608x3 cst_0
  let v3 : FVec F S8388608x3 .f32 := mulf v2 v1
  let cst_1 : FVec F S_ .f32 := constant S_ .f32 0x3D088889#32
  let v4 : FVec F S8388608x3 .f32 := broadcastInDim S8388608x3 ![] bcast_S_S8388608x3 cst_1
  let v5 : FVec F S8388608x3 .f32 := addf v3 v4
  let v6 : FVec F S8388608x3 .f32 := mulf v0 v5
  let cst_2 : FVec F S_ .f32 := constant S_ .f32 0x00000000#32
  let v7 : FVec F S8388608 .f32 := Host.reduceAdd v6 cst_2 reducesTo_S8388608x3_S8388608_d1 h_S_
  let v8 : FVec F S8388608 .f32 := Host.negf v7
  let v15 : FVec F S8388608 .f32 := weights l
  let v16 : FVec F S8388608 .f32 := mulf v8 v15
  let cst_4 : FVec F S_ .f32 := constant S_ .f32 0x00000000#32
  let v17 : FVec F S_ .f32 := Host.reduceAdd v16 cst_4 reducesTo_S8388608_S_d0 h_S_
  let cst_5 : FVec F S_ .f32 := constant S_ .f32 0x4B000000#32
  Host.divf v17 cst_5

end Cert.ReferenceIdeal.RefValue

end
-- ==== Proof.RefRun.lean ====
/-
  The reference program's run. @main is one straight line of 46 host operations once its two calls are unfolded
  at their sites: the weight table, the fifteen operations of the log-softmax over the first call's buffers, the
  six of the one-hot over the second call's, and the twenty-four that follow. Every weakly fair execution of that
  line terminates, each buffer ending at the fold of the operations' results over the launch contents; read at the
  result buffer, that fold is the composed term of the two arguments, and at the arguments' buffers it is what they
  held at launch (no operation writes them).
-/
import proofs.«400214_j68633577390300_3_alg».proof.Proof.RefTerm
import proofs.«400214_j68633577390300_3_alg».proof.Proof.Gen.ReferenceIdeal
import Idealize.ShloMosaic.Lib.StableHlo.Run

noncomputable section

namespace Cert.ReferenceIdeal.RefValue

open Cert.ReferenceIdeal Idealize.ShloMosaic Idealize.ShloMosaic.TcCoe Idealize.SL.Sem Idealize.ShloMosaic.StableHlo
open Facts₀ Facts

variable {F : FTy → Type} [FloatOps F]

/-- @main's 46 operations in order, the two calls unfolded: the callee's operations stand at the call site, over
    the call's own buffers (the log-softmax writes its result into @main's %0, the one-hot into @main's %1). -/
abbrev refOps : List (HloOp τ sig (Elt F)) :=
  [
    nullary main_cst (fun i => FloatOps.ofBits .f32 (lit0 (S3.rowMajor i))),
    TRef.nullary main_call0.cst (constant S_ .f32 0xFF800000#32),
    TRef.binary (.of main_arg0 : TRef sig ⟨S8388608x3, .f32⟩) main_call0.cst main_call0.v0 (fun x v => Host.reduce FloatOps.maximumf x v reducesTo_S8388608x3_S8388608_d1 h_S_),
    TRef.nullary main_call0.cst_0 (constant S_ .f32 0xFF800000#32),
    TRef.unary main_call0.cst_0 main_call0.v1 (broadcastInDim S8388608 ![] bcast_S_S8388608),
    TRef.binary main_call0.v1 main_call0.v0 main_call0.v2 maximumf,
    TRef.unary main_call0.v2 main_call0.v3 (broadcastInDim S8388608x1 ![0] bcast_S8388608_S8388608x1_0),
    TRef.unary main_call0.v3 main_call0.v4 (broadcastInDim S8388608x3 ![0, 1] bcast_S8388608x1_S8388608x3_0_1),
    TRef.binary (.of main_arg0 : TRef sig ⟨S8388608x3, .f32⟩) main_call0.v4 main_call0.v5 subf,
    TRef.unary main_call0.v5 main_call0.v6 Host.exp,
    TRef.nullary main_call0.cst_1 (constant S_ .f32 0x00000000#32),
    TRef.binary main_call0.v6 main_call0.cst_1 main_call0.v7 (fun x v => Host.reduceAdd x v reducesTo_S8388608x3_S8388608_d1 h_S_),
    TRef.unary main_call0.v7 main_call0.v8 (broadcastInDim S8388608x1 ![0] bcast_S8388608_S8388608x1_0),
    TRef.unary main_call0.v8 main_call0.v9 Host.log,
    TRef.unary main_call0.v9 main_call0.v10 (broadcastInDim S8388608x3 ![0, 1] bcast_S8388608x1_S8388608x3_0_1),
    TRef.binary main_call0.v5 main_call0.v10 main_call0.v11 subf,
    TRef.unary (.of main_arg1 : TRef sig ⟨S8388608, .i32⟩) main_call1.v0 (broadcastInDim S8388608x1 ![0] bcast_S8388608_S8388608x1_0),
    TRef.nullary main_call1.v1 (iotaInDim S1x3 32 1),
    TRef.unary main_call1.v0 main_call1.v2 (broadcastInDim S8388608x3 ![0, 1] bcast_S8388608x1_S8388608x3_0_1),
    TRef.unary main_call1.v1 main_call1.v3 (broadcastInDim S8388608x3 ![0, 1] bcast_S1x3_S8388608x3_0_1),
    TRef.binary main_call1.v2 main_call1.v3 main_call1.v4 (cmpi .eq),
    TRef.unary main_call1.v4 main_call1.v5 (uitofp .f32),
    nullary main_cst_0 (constant S_ .f32 0x3F666666#32),
    unary main_cst_0 main_v2 (broadcastInDim S8388608x3 ![] bcast_S_S8388608x3 : (⟨S_, .f32⟩ : BufTy).Contents (Elt F) → (⟨S8388608x3, .f32⟩ : BufTy).Contents (Elt F)),
    binary main_v2 main_v1 main_v3 (mulf : (⟨S8388608x3, .f32⟩ : BufTy).Contents (Elt F) → (⟨S8388608x3, .f32⟩ : BufTy).Contents (Elt F) → (⟨S8388608x3, .f32⟩ : BufTy).Contents (Elt F)),
    nullary main_cst_1 (constant S_ .f32 0x3D088889#32),
    unary main_cst_1 main_v4 (broadcastInDim S8388608x3 ![] bcast_S_S8388608x3 : (⟨S_, .f32⟩ : BufTy).Contents (Elt F) → (⟨S8388608x3, .f32⟩ : BufTy).Contents (Elt F)),
    binary main_v3 main_v4 main_v5 (addf : (⟨S8388608x3, .f32⟩ : BufTy).Contents (Elt F) → (⟨S8388608x3, .f32⟩ : BufTy).Contents (Elt F) → (⟨S8388608x3, .f32⟩ : BufTy).Contents (Elt F)),
    binary main_v0 main_v5 main_v6 (mulf : (⟨S8388608x3, .f32⟩ : BufTy).Contents (Elt F) → (⟨S8388608x3, .f32⟩ : BufTy).Contents (Elt F) → (⟨S8388608x3, .f32⟩ : BufTy).Contents (Elt F)),
    nullary main_cst_2 (constant S_ .f32 0x00000000#32),
    binary main_v6 main_cst_2 main_v7 ((fun x v => Host.reduceAdd x v reducesTo_S8388608x3_S8388608_d1 h_S_) : (⟨S8388608x3, .f32⟩ : BufTy).Contents (Elt F) → (⟨S_, .f32⟩ : BufTy).Contents (Elt F) → (⟨S8388608, .f32⟩ : BufTy).Contents (Elt F)),
    unary main_v7 main_v8 (Host.negf : (⟨S8388608, .f32⟩ : BufTy).Contents (Elt F) → (⟨S8388608, .f32⟩ : BufTy).Contents (Elt F)),
    nullary main_c (constantI S_ 32 0#32),
    unary main_c main_v9 (broadcastInDim S8388608 ![] bcast_S_S8388608 : (⟨S_, .i32⟩ : BufTy).Contents (Elt F) → (⟨S8388608, .i32⟩ : BufTy).Contents (Elt F)),
    binary main_arg1 main_v9 main_v10 (cmpi .slt : (⟨S8388608, .i32⟩ : BufTy).Contents (Elt F) → (⟨S8388608, .i32⟩ : BufTy).Contents (Elt F) → (⟨S8388608, .i1⟩ : BufTy).Contents (Elt F)),
    nullary main_c_3 (constantI S_ 32 3#32),
    unary main_c_3 main_v11 (broadcastInDim S8388608 ![] bcast_S_S8388608 : (⟨S_, .i32⟩ : BufTy).Contents (Elt F) → (⟨S8388608, .i32⟩ : BufTy).Contents (Elt F)),
    binary main_arg1 main_v11 main_v12 (addi : (⟨S8388608, .i32⟩ : BufTy).Contents (Elt F) → (⟨S8388608, .i32⟩ : BufTy).Contents (Elt F) → (⟨S8388608, .i32⟩ : BufTy).Contents (Elt F)),
    ternary main_v10 main_v12 main_arg1 main_v13 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)),
    unary main_v13 main_v14 (broadcastInDim S8388608x1 ![0] bcast_S8388608_S8388608x1_0 : (⟨S8388608, .i32⟩ : BufTy).Contents (Elt F) → (⟨S8388608x1, .i32⟩ : BufTy).Contents (Elt F)),
    binary main_cst main_v14 main_v15 ((fun x i => Host.gather gather_S3_S8388608x1_S8388608_n_0_n_n_0_1_1 x i) : (⟨S3, .f32⟩ : BufTy).Contents (Elt F) → (⟨S8388608x1, .i32⟩ : BufTy).Contents (Elt F) → (⟨S8388608, .f32⟩ : BufTy).Contents (Elt F)),
    binary main_v8 main_v15 main_v16 (mulf : (⟨S8388608, .f32⟩ : BufTy).Contents (Elt F) → (⟨S8388608, .f32⟩ : BufTy).Contents (Elt F) → (⟨S8388608, .f32⟩ : BufTy).Contents (Elt F)),
    nullary main_cst_4 (constant S_ .f32 0x00000000#32),
    binary main_v16 main_cst_4 main_v17 ((fun x v => Host.reduceAdd x v reducesTo_S8388608_S_d0 h_S_) : (⟨S8388608, .f32⟩ : BufTy).Contents (Elt F) → (⟨S_, .f32⟩ : BufTy).Contents (Elt F) → (⟨S_, .f32⟩ : BufTy).Contents (Elt F)),
    nullary main_cst_5 (constant S_ .f32 0x4B000000#32),
    binary main_v17 main_cst_5 main_v18 (Host.divf : (⟨S_, .f32⟩ : BufTy).Contents (Elt F) → (⟨S_, .f32⟩ : BufTy).Contents (Elt F) → (⟨S_, .f32⟩ : BufTy).Contents (Elt F)) ]

/-- A cast along an equation of a type with itself is the identity: the equation each such cast is rewritten
    with, one step per cast. -/
theorem refCast_self {α : Sort _} (h : α = α) (a : α) : cast h a = a := (cast_eq h a).trans rfl

-- forty-six binds re-associated, one rewrite under the chain per statement
set_option maxRecDepth 4096 in
/-- @main is that straight line: with the two functions' bodies unfolded at their calls, both sides are one chain
    of host steps once sequencing is re-associated. -/
theorem refMain_eq (c : Dev nD) : main (F := F) c = seq refOps := by
  simp only [main, fn_log_softmax.body, fn_one_hot.body, seq, bind_assoc, pure_bind]

theorem refScopedRefs_eq : (Finset.univ.filter fun b : Ref sig .tc => b.isScoped) = ∅ := by decide
theorem refScopedSems_eq : (Finset.univ.filter fun sm : SemLoc sig => sm.isScoped .tc) = ∅ := by decide

/-- Every operation touches TensorCore buffers only. -/
theorem refOps_sub : (refOps : List (HloOp τ sig (Elt F))).Forall fun op => op.bufs ⊆ tcRefs τ sig :=
  ⟨nullary_bufs_sub .., nullary_bufs_sub .., binary_bufs_sub .., nullary_bufs_sub .., unary_bufs_sub .., binary_bufs_sub ..,
    unary_bufs_sub .., unary_bufs_sub .., binary_bufs_sub .., unary_bufs_sub .., nullary_bufs_sub .., binary_bufs_sub ..,
    unary_bufs_sub .., unary_bufs_sub .., unary_bufs_sub .., binary_bufs_sub .., unary_bufs_sub .., nullary_bufs_sub ..,
    unary_bufs_sub .., unary_bufs_sub .., binary_bufs_sub .., unary_bufs_sub .., nullary_bufs_sub .., unary_bufs_sub ..,
    binary_bufs_sub .., nullary_bufs_sub .., unary_bufs_sub .., binary_bufs_sub .., binary_bufs_sub .., nullary_bufs_sub ..,
    binary_bufs_sub .., unary_bufs_sub .., nullary_bufs_sub .., unary_bufs_sub .., binary_bufs_sub .., nullary_bufs_sub ..,
    unary_bufs_sub .., binary_bufs_sub .., ternary_bufs_sub .., unary_bufs_sub .., binary_bufs_sub .., binary_bufs_sub ..,
    nullary_bufs_sub .., binary_bufs_sub .., nullary_bufs_sub .., binary_bufs_sub ..⟩

/-- The fold at the result buffer is the composed term of the two arguments' contents. Each operation's result is
    read at its own buffer and passed over at every other; a callee's operation is stated at the value's type and
    moved to its buffer's type and back along an equation between a type and itself, so each such move is the
    identity; what is left is the operations applied to one another in program order, which is the term. -/
theorem refOut_eq (V : Valuation τ sig (Elt F)) :
    after refOps V (main_v18 : DevRef τ sig)
      = refTerm (F := F) (V (main_arg0 : DevRef τ sig)) (V (main_arg1 : DevRef τ sig)) := by
  after_results_simp
  simp only [refCast_self]
  rfl

/-- No operation writes the first argument's buffer. -/
theorem refArg0_eq (V : Valuation τ sig (Elt F)) :
    after refOps V (main_arg0 : DevRef τ sig) = V (main_arg0 : DevRef τ sig) := by
  after_results_simp

/-- No operation writes the second argument's buffer. -/
theorem refArg1_eq (V : Valuation τ sig (Elt F)) :
    after refOps V (main_arg1 : DevRef τ sig) = V (main_arg1 : DevRef τ sig) := by
  after_results_simp

/-- On the one device, for any float values, from any memory with zero counters: every weakly fair execution of
    @main terminates with the result buffer at the composed term of the arguments' launch contents and the two
    arguments unchanged. -/
theorem run0 (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v18) = refTerm (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c main_v18).trans (refOut_eq _), (h c main_arg0).trans (refArg0_eq _),
      (h c main_arg1).trans (refArg1_eq _)⟩)
    (run_seq refScopedRefs_eq refScopedSems_eq defs main (fun _ => refOps) refMain_eq (fun _ => refOps_sub) m ρ)

end Cert.ReferenceIdeal.RefValue

end
-- ==== Proof.RefRead.lean ====
/-
  The reference's result read at its one index: the total over the 2²³ samples of one sample's term, divided by 2²³.
  Each stage of the reference is read at an index — the row maximum, the shifted logits, their exponentials' row sum
  and its logarithm (the log-softmax), the indicator rows of the labels, the smoothed targets A·[l = k] + B, the row
  sum of the products, its negation, the class weight gathered at the label — and the stages are then composed.
  Every step is a definitional reading or a law that holds on all extended reals: 0 + a = a, max ⊥ a = a, and the
  associativity of max. The hypothesis on the labels is used only for the gathered weight: a label in {0, 1, 2} is
  not negative, so the wrap-around select keeps it, the clamp into [0, 2] keeps it, and the table entry read is the
  weight of that class.
-/
import proofs.«400214_j68633577390300_3_alg».proof.Proof.RefTerm
import proofs.«400214_j68633577390300_3_alg».proof.Proof.Spec
import proofs.«400214_j68633577390300_3_alg».proof.Proof.Gen.ReferenceIdeal
import Idealize.ShloMosaic.Lib.ValueIdx
import Idealize.ShloMosaic.Lib.ValueIdxRank1
import Idealize.ShloMosaic.Lib.IdealHost
import Idealize.ShloMosaic.Lib.Pipeline.Value
import Idealize.ShloMosaic.PureOps.Ideal.Laws
import Idealize.ShloMosaic.Lib.ValueLayout
import Idealize.ShloMosaic.Lib.StableHlo.Predicate

noncomputable section

open scoped BigOperators

namespace Cert.ReferenceIdeal.RefValue

open Idealize.ShloMosaic Idealize.ShloMosaic.ValueIdx Cert.ReferenceIdeal
open Facts₀ Facts

/-! ## The three broadcasts read at an index -/

section Layout
variable {α : Type}

/-- A vector over the samples laid out as a column [2²³, 1] reads, at (n, 0), the vector at n. -/
theorem bcast_col_apply (h : S8388608.BroadcastsInDim S8388608x1 (![0] : Fin 1 → Fin S8388608x1.rank))
    (v : S8388608.Idx → α) (n : Fin 8388608) (z : Fin 1) :
    broadcastInDim S8388608x1 ![0] h v (ix2 n z) = v (ix1 n) :=
  broadcastInDim_apply _ h v _ _ (fun a => by match a with | ⟨0, _⟩ => rfl)

/-- A column [2²³, 1] repeated along the class axis reads, at (n, k), the column at (n, 0). -/
theorem bcast_row_apply (h : S8388608x1.BroadcastsInDim S8388608x3 (![0, 1] : Fin 2 → Fin S8388608x3.rank))
    (v : S8388608x1.Idx → α) (n : Fin 8388608) (k : Fin 3) :
    broadcastInDim S8388608x3 ![0, 1] h v (ix2 n k) = v (ix2 n 0) :=
  broadcastInDim_apply _ h v _ _ (fun a => by match a with | ⟨0, _⟩ => rfl | ⟨1, _⟩ => rfl)

/-- A row [1, 3] repeated along the sample axis reads, at (n, k), the row at (0, k). -/
theorem bcast_iota_apply (h : S1x3.BroadcastsInDim S8388608x3 (![0, 1] : Fin 2 → Fin S8388608x3.rank))
    (v : S1x3.Idx → α) (n : Fin 8388608) (k : Fin 3) :
    broadcastInDim S8388608x3 ![0, 1] h v (ix2 n k) = v (ix2 0 k) :=
  broadcastInDim_apply _ h v _ _ (fun a => by match a with | ⟨0, _⟩ => rfl | ⟨1, _⟩ => rfl)

end Layout

/-! ## The reductions along the class axis and over the samples -/

/-- Dropping the class axis of [2²³, 3] leaves [2²³]. -/
theorem red1 : S8388608x3.Reduces [1] S8388608 := by decide

/-- Sample n with class k inserted on the dropped axis is the index (n, k). -/
theorem lift_eq (n : Fin 8388608) (k : Fin 3) : red1.lift (ix1 n) k = ix2 n k := by
  funext a
  match a with
  | ⟨0, _⟩ => exact Fin.ext rfl
  | ⟨1, _⟩ => exact Fin.ext rfl

/-- The word 0xFF800000 denotes −∞, the least extended real. -/
theorem ofBits_ninf : Ideal.ofBits .f32 0xFF800000#32 = (⊥ : EReal) := by
  simp [Ideal.ofBits, Ideal.ieee]

/-- A fold of a commutative and associative operation over the three classes, written out. -/
theorem fold_fin3 {β : Type} (op : β → β → β) [Std.Commutative op] [Std.Associative op] (b : β) (f : Fin 3 → β) :
    (Finset.univ : Finset (Fin 3)).fold op b f = op (f 0) (op (f 1) (op (f 2) b)) := by
  rw [show (Finset.univ : Finset (Fin 3)) = insert 0 (insert 1 {2}) from by decide]
  rw [Finset.fold_insert (by decide), Finset.fold_insert (by decide), Finset.fold_singleton]

/-! ## The pointwise operations read at an index (all definitional) -/

section Pointwise
variable {s : Shape}

theorem hostExp_apply (a : FVec Ideal s .f32) (i : s.Idx) : Host.exp a i = Ideal.exp (a i) := rfl
theorem hostLog_apply (a : FVec Ideal s .f32) (i : s.Idx) : Host.log a i = Ideal.log (a i) := rfl
theorem hostNegf_apply (a : FVec Ideal s .f32) (i : s.Idx) : Host.negf a i = -(a i) := rfl
theorem cmpi_apply {w : Nat} (p : CmpIPredicate) (a b : IVec s w) (i : s.Idx) : cmpi p a b i = IntOp.cmpi p (a i) (b i) := rfl
theorem addi_apply {w : Nat} (a b : IVec s w) (i : s.Idx) : addi a b i = IntOp.addi (a i) (b i) := rfl
theorem uitofp_apply {w : Nat} (a : IVec s w) (i : s.Idx) :
    (uitofp .f32 a : FVec Ideal s .f32) i = (((a i).toNat : ℝ) : EReal) := rfl
theorem constantI_apply {w : Nat} (b : BitVec w) (i : s.Idx) : constantI s w b i = b := rfl

end Pointwise

/-- The row maximum from −∞ at sample n is the maximum of the three logits: max c₀ (max c₁ (max c₂ ⊥)), and
    max a ⊥ = a, max is associative. -/
theorem rowMax_apply (x : FVec Ideal S8388608x3 .f32) (n : Fin 8388608) :
    Host.reduce FloatOps.maximumf x (constant (F := Ideal) S_ .f32 0xFF800000#32)
      reducesTo_S8388608x3_S8388608_d1 h_S_ (ix1 n)
      = max (max (x (ix2 n 0)) (x (ix2 n 1))) (x (ix2 n 2)) := by
  refine (Host.reduce_eq_fold_single FloatOps.maximumf x _ reducesTo_S8388608x3_S8388608_d1 red1 h_S_ (ix1 n)).trans ?_
  refine (fold_fin3 _ _ _).trans ?_
  simp only [Function.comp, lift_eq]
  show max (x (ix2 n 0)) (max (x (ix2 n 1)) (max (x (ix2 n 2)) (Ideal.ofBits .f32 0xFF800000#32))) = _
  rw [ofBits_ninf, max_bot_right, max_assoc]

/-- The row sum from 0 at sample n is the sum of the three entries: 0 + (y₀ + y₁ + y₂). -/
theorem rowSum_apply (y : FVec Ideal S8388608x3 .f32) (n : Fin 8388608) :
    Host.reduceAdd y (constant (F := Ideal) S_ .f32 0x00000000#32) reducesTo_S8388608x3_S8388608_d1 h_S_ (ix1 n)
      = y (ix2 n 0) + y (ix2 n 1) + y (ix2 n 2) := by
  refine (Ideal.hostReduceAdd_single reducesTo_S8388608x3_S8388608_d1 red1 y _ (ix1 n)).trans ?_
  refine (congrArg₂ (· + ·) Ideal.ofBits_zero_f32 (Fin.sum_univ_three _)).trans ?_
  simp only [lift_eq, zero_add]

/-- The total from 0 over all samples is the sum over n of the entries, the index set [2²³] being its one
    coordinate's range. -/
theorem total_apply (y : FVec Ideal S8388608 .f32) (j : S_.Idx) :
    Host.reduceAdd y (constant (F := Ideal) S_ .f32 0x00000000#32) reducesTo_S8388608_S_d0 h_S_ j
      = ∑ n : Fin 8388608, y (ix1 n) := by
  refine (Ideal.hostReduceAdd_total reducesTo_S8388608_S_d0 (fun b => b.elim0) y _ j).trans ?_
  refine (congrArg₂ (· + ·) Ideal.ofBits_zero_f32 (Equiv.sum_comp idxEquiv1.symm y).symm).trans ?_
  rw [zero_add]
  rfl

/-! ## The log-softmax and the indicator rows at (n, k) -/

/-- The log-softmax at (n, k): (c_k − m) − log (exp (c₀ − m) + exp (c₁ − m) + exp (c₂ − m)), m the row maximum
    (the reference takes max ⊥ m, which is m). -/
theorem logSoftmax_apply (x : FVec Ideal S8388608x3 .f32) (n : Fin 8388608) (k : Fin 3) :
    logSoftmax (F := Ideal) x (ix2 n k)
      = (x (ix2 n k) - max (max (x (ix2 n 0)) (x (ix2 n 1))) (x (ix2 n 2)))
        - Ideal.log (Ideal.exp (x (ix2 n 0) - max (max (x (ix2 n 0)) (x (ix2 n 1))) (x (ix2 n 2)))
            + Ideal.exp (x (ix2 n 1) - max (max (x (ix2 n 0)) (x (ix2 n 1))) (x (ix2 n 2)))
            + Ideal.exp (x (ix2 n 2) - max (max (x (ix2 n 0)) (x (ix2 n 1))) (x (ix2 n 2)))) := by
  unfold logSoftmax
  simp only [subf_apply]
  rw [bcast_row_apply, bcast_row_apply, hostLog_apply, bcast_col_apply, bcast_col_apply, rowSum_apply]
  simp only [hostExp_apply, subf_apply]
  repeat rw [bcast_row_apply]
  rw [bcast_col_apply, maximumf_apply, broadcastInDim_scalar_apply, rowMax_apply, constant_apply, ofBits_ninf,
    max_bot_left]

/-- The one-bit word of an equality test, read unsigned as an extended real, is the indicator. -/
theorem cmpi_eq_toNat (a b : BitVec 32) :
    (((IntOp.cmpi .eq a b).toNat : ℝ) : EReal) = Cert.Loss.hot a b := by
  unfold Cert.Loss.hot
  by_cases h : a = b
  · simp [IntOp.cmpi, h]
  · simp [IntOp.cmpi, h]

/-- The indicator row at (n, k) is [l_n = k], for every label word. -/
theorem oneHot_apply (l : IVec S8388608 32) (n : Fin 8388608) (k : Fin 3) :
    oneHot (F := Ideal) l (ix2 n k) = Cert.Loss.hot (l (ix1 n)) (BitVec.ofNat 32 k.val) := by
  unfold oneHot
  simp only [uitofp_apply, cmpi_apply, cmpi_eq_toNat]
  rw [bcast_row_apply, bcast_col_apply, bcast_iota_apply]
  rfl

/-! ## The gathered class weight at n -/

theorem ofFin_eq_ix1 {m : Nat} (p : Fin m) : Shape.Idx.ofFin p = ix1 p := by
  funext a
  match a with
  | ⟨0, _⟩ => exact Fin.ext rfl

theorem ixP_eq_ix2 {m : Nat} (p : Fin m) : StableHlo.Predicate.ixP p = ix2 p (0 : Fin 1) := by
  funext a
  match a with
  | ⟨0, _⟩ => rfl
  | ⟨1, _⟩ => rfl

/-- The gather at sample n reads the table at the start index (n, 0), read signed and clamped into [0, 2]: at class
    c when that clamped value is c. -/
theorem gather_apply {α : Type} (tbl : S3.Idx → α) (idx : IVec S8388608x1 32) (n : Fin 8388608) (c : Fin 3)
    (hc : min (idx (ix2 n 0)).toInt.toNat (3 - 1) = c.val) :
    Host.gather gather_S3_S8388608x1_S8388608_n_0_n_n_0_1_1 tbl idx (ix1 n) = tbl (ix1 c) := by
  have hg := StableHlo.Predicate.gather_take gather_S3_S8388608x1_S8388608_n_0_n_n_0_1_1 rfl rfl rfl rfl tbl idx n
    (by decide)
  rw [ofFin_eq_ix1] at hg
  rw [hg, ofFin_eq_ix1]
  refine congrArg (fun q => tbl (ix1 q)) (Fin.ext ?_)
  show min (idx (StableHlo.Predicate.ixP n)).toInt.toNat (3 - 1) = c.val
  rw [ixP_eq_ix2]
  exact hc

/-- For a label word w that the wrap-around select keeps and whose signed value clamps to class c, the weight at n is
    the table's entry c. -/
theorem weights_case (l : IVec S8388608 32) (n : Fin 8388608) (w : BitVec 32) (c : Fin 3) (h : l (ix1 n) = w)
    (hsel : Scalar.select (IntOp.cmpi .slt w 0#32) (IntOp.addi w 3#32) w = w)
    (hc : min w.toInt.toNat (3 - 1) = c.val) :
    weights (F := Ideal) l (ix1 n) = Ideal.ofBits .f32 (lit0 (S3.rowMajor (ix1 c))) := by
  unfold weights
  simp only []
  refine gather_apply _ _ n c ?_
  rw [bcast_col_apply, select_apply, cmpi_apply, addi_apply, broadcastInDim_scalar_apply,
    broadcastInDim_scalar_apply, constantI_apply, constantI_apply, h, hsel]
  exact hc

/-- For a label in {0, 1, 2} the weight at n is the class weight of the label. -/
theorem weights_apply (l : IVec S8388608 32) (n : Fin 8388608)
    (hl : l (ix1 n) = 0#32 ∨ l (ix1 n) = 1#32 ∨ l (ix1 n) = 2#32) :
    weights (F := Ideal) l (ix1 n) = Cert.Loss.wsel (l (ix1 n)) := by
  rcases hl with h | h | h
  · rw [weights_case l n _ 0 h (by decide) (by decide), h]
    show _ = Cert.Loss.w0
    exact congrArg (Ideal.ofBits .f32) (by decide)
  · rw [weights_case l n _ 1 h (by decide) (by decide), h]
    show _ = Cert.Loss.w1
    exact congrArg (Ideal.ofBits .f32) (by decide)
  · rw [weights_case l n _ 2 h (by decide) (by decide), h]
    show _ = Cert.Loss.w2
    exact congrArg (Ideal.ofBits .f32) (by decide)

/-! ## The result -/

/-- The reference's result is the total of the per-sample terms over 2²³: the quotient's numerator is the sum over n
    of −(Σ_k logp'_k · (A·[l_n = k] + B)) · w_{l_n}, each factor read at its index by the lemmas above. -/
theorem refTerm_eq (x : FVec Ideal S8388608x3 .f32) (l : IVec S8388608 32)
    (hl : ∀ n : Fin 8388608, l (ValueIdx.ix1 n) = 0#32 ∨ l (ValueIdx.ix1 n) = 1#32 ∨ l (ValueIdx.ix1 n) = 2#32) :
    refTerm (F := Ideal) x l = Cert.Loss.rtotal x l := by
  funext j
  unfold refTerm Cert.Loss.rtotal
  simp only []
  rw [hostDivf_apply, total_apply, constant_apply]
  refine congrArg (fun t => Ideal.div t Cert.Loss.cN) (Finset.sum_congr rfl fun n _ => ?_)
  rw [mulf_apply, hostNegf_apply, rowSum_apply, weights_apply l n (hl n)]
  simp only [mulf_apply, addf_apply]
  repeat rw [logSoftmax_apply]
  repeat rw [oneHot_apply]
  repeat rw [broadcastInDim_scalar_apply]
  simp only [constant_apply]
  rfl

end Cert.ReferenceIdeal.RefValue

end
-- ==== Proof.Algebra.lean ====
/-
  The two arrangements of the weighted, label-smoothed cross-entropy agree sample by sample when the logits are real
  and the label is one of the three classes, and the kernel's grouped sum over (half, step, sublane, lane) is the sum
  over all samples; hence the two totals agree.

  Per sample everything is a real number: the maximum m of three reals is real, the three differences c_k − m are
  real, their exponentials are positive reals, so the logarithm of their sum S is the real log S.  With L = log S the
  kernel's log-probabilities are c_k − (m + L) and the reference's are (c_k − m) − L, the same real numbers; and
  A·p_l + B·(p₀ + p₁ + p₂) = Σ_k p_k·(A·[l = k] + B) is the distributive law in ℝ.  The five constants enter only as
  real numbers, whatever their values.

  The sample index ((16h + i)·8 + s)·32768 + q is the mixed-radix numeral with digits (h, i, s, q) in bases
  (2, 16, 8, 32768): a bijection of the product of the four digit ranges with the 2²³ samples.
-/
import proofs.«400214_j68633577390300_3_alg».proof.Proof.Spec
import Idealize.ShloMosaic.PureOps.Ideal.Laws
import Mathlib.Data.EReal.Basic
import Mathlib.Data.EReal.Operations
import Mathlib.Data.Fintype.BigOperators
import Mathlib.Logic.Equiv.Fin.Basic
import Mathlib.Analysis.SpecialFunctions.Log.Basic

noncomputable section

open scoped BigOperators

namespace Cert.Loss

open Idealize.ShloMosaic Idealize.ShloMosaic.ValueIdx

/-! ## The constants are real numbers -/

/-- An extended real that is neither infinity is a real number. -/
private theorem real_of_ne {x : EReal} (h1 : x ≠ ⊤) (h2 : x ≠ ⊥) : ∃ a : ℝ, x = (a : EReal) :=
  ⟨x.toReal, (EReal.coe_toReal h1 h2).symm⟩

private theorem cA_real : ∃ a : ℝ, cA = (a : EReal) :=
  real_of_ne (by simp [cA, Ideal.ofBits, Ideal.ieee, -EReal.coe_mul]) (by simp [cA, Ideal.ofBits, Ideal.ieee, -EReal.coe_mul])
private theorem cB_real : ∃ a : ℝ, cB = (a : EReal) :=
  real_of_ne (by simp [cB, Ideal.ofBits, Ideal.ieee, -EReal.coe_mul]) (by simp [cB, Ideal.ofBits, Ideal.ieee, -EReal.coe_mul])
private theorem w0_real : ∃ a : ℝ, w0 = (a : EReal) :=
  real_of_ne (by simp [w0, Ideal.ofBits, Ideal.ieee, -EReal.coe_mul]) (by simp [w0, Ideal.ofBits, Ideal.ieee, -EReal.coe_mul])
private theorem w1_real : ∃ a : ℝ, w1 = (a : EReal) :=
  real_of_ne (by simp [w1, Ideal.ofBits, Ideal.ieee, -EReal.coe_mul]) (by simp [w1, Ideal.ofBits, Ideal.ieee, -EReal.coe_mul])
private theorem w2_real : ∃ a : ℝ, w2 = (a : EReal) :=
  real_of_ne (by simp [w2, Ideal.ofBits, Ideal.ieee, -EReal.coe_mul]) (by simp [w2, Ideal.ofBits, Ideal.ieee, -EReal.coe_mul])

/-! ## One sample -/

/-- The maximum of two reals, as an extended real, is the maximum of the two as extended reals. -/
private theorem coe_max (x y : ℝ) : max (x : EReal) (y : EReal) = ((max x y : ℝ) : EReal) :=
  (EReal.coe_strictMono.monotone.map_max).symm

theorem kterm_eq_rterm (r0 r1 r2 : ℝ) (l : BitVec 32) (hl : l = 0#32 ∨ l = 1#32 ∨ l = 2#32) :
    kterm (r0 : EReal) (r1 : EReal) (r2 : EReal) l = rterm (r0 : EReal) (r1 : EReal) (r2 : EReal) l := by
  obtain ⟨a, ha⟩ := cA_real
  obtain ⟨b, hb⟩ := cB_real
  obtain ⟨v0, hv0⟩ := w0_real
  obtain ⟨v1, hv1⟩ := w1_real
  obtain ⟨v2, hv2⟩ := w2_real
  have hm : max (max (r0 : EReal) r1) r2 = ((max (max r0 r1) r2 : ℝ) : EReal) := by
    rw [coe_max, coe_max]
  generalize max (max r0 r1) r2 = m at hm
  have hS : 0 < Real.exp (r0 - m) + Real.exp (r1 - m) + Real.exp (r2 - m) := by positivity
  have hlog : Ideal.log (Ideal.exp ((r0 : EReal) - m) + Ideal.exp ((r1 : EReal) - m) + Ideal.exp ((r2 : EReal) - m))
      = ((Real.log (Real.exp (r0 - m) + Real.exp (r1 - m) + Real.exp (r2 - m)) : ℝ) : EReal) := by
    rw [← EReal.coe_sub, ← EReal.coe_sub, ← EReal.coe_sub, Ideal.exp_coe, Ideal.exp_coe, Ideal.exp_coe,
      ← EReal.coe_add, ← EReal.coe_add, Ideal.log_coe, if_neg (not_le.mpr hS)]
  generalize Real.log (Real.exp (r0 - m) + Real.exp (r1 - m) + Real.exp (r2 - m)) = L at hlog
  have h10 : ¬ (1#32 : BitVec 32) = 0#32 := by decide
  have h20 : ¬ (2#32 : BitVec 32) = 0#32 := by decide
  have h21 : ¬ (2#32 : BitVec 32) = 1#32 := by decide
  have h01 : ¬ (0#32 : BitVec 32) = 1#32 := by decide
  have h02 : ¬ (0#32 : BitVec 32) = 2#32 := by decide
  have h12 : ¬ (1#32 : BitVec 32) = 2#32 := by decide
  unfold kterm rterm wsel hot
  simp only [hm, hlog, ha, hb, hv0, hv1, hv2]
  rw [← EReal.coe_zero, ← EReal.coe_one]
  rcases hl with rfl | rfl | rfl
  · simp only [if_true, if_false, h10, h20, h21, h01, h02, h12, ← EReal.coe_sub, ← EReal.coe_add, ← EReal.coe_mul, ← EReal.coe_neg]
    congr 1; ring
  · simp only [if_true, if_false, h10, h20, h21, h01, h02, h12, ← EReal.coe_sub, ← EReal.coe_add, ← EReal.coe_mul, ← EReal.coe_neg]
    congr 1; ring
  · simp only [if_true, if_false, h10, h20, h21, h01, h02, h12, ← EReal.coe_sub, ← EReal.coe_add, ← EReal.coe_mul, ← EReal.coe_neg]
    congr 1; ring

/-! ## The grouped sum is the sum over the samples -/

/-- The digits (h, i, s, q) in bases (2, 16, 8, 32768) and the number they spell. -/
private def flatEquiv : ((Fin 2 × Fin 16) × Fin 8) × Fin 32768 ≃ Fin 8388608 :=
  (((finProdFinEquiv.prodCongr (Equiv.refl (Fin 8))).trans finProdFinEquiv).prodCongr (Equiv.refl (Fin 32768))).trans
    (finProdFinEquiv.trans (finCongr (by norm_num)))

private theorem flatEquiv_apply (h : Fin 2) (i : Fin 16) (s : Fin 8) (q : Fin 32768) :
    flatEquiv (((h, i), s), q) = flat h i s q := by
  apply Fin.ext
  simp only [flatEquiv, flat, Equiv.trans_apply, Equiv.prodCongr_apply, Prod.map, Equiv.refl_apply, finProdFinEquiv_apply_val,
    finCongr_apply_coe, id]
  omega

theorem sum_flat {M : Type*} [AddCommMonoid M] (f : Fin 8388608 → M) :
    (∑ h : Fin 2, ∑ i : Fin 16, ∑ s : Fin 8, ∑ q : Fin 32768, f (flat h i s q)) = ∑ n : Fin 8388608, f n := by
  rw [← flatEquiv.sum_comp f]
  simp only [Fintype.sum_prod_type, flatEquiv_apply]

/-! ## The totals -/

theorem ktotal_eq_rtotal (x : FVec Ideal SP .f32) (l : IVec SL 32)
    (hx : ∀ j : SP.Idx, ∃ r : ℝ, x j = (r : EReal))
    (hl : ∀ n : Fin 8388608, l (ValueIdx.ix1 n) = 0#32 ∨ l (ValueIdx.ix1 n) = 1#32 ∨ l (ValueIdx.ix1 n) = 2#32) :
    ktotal x l = rtotal x l := by
  funext j
  unfold ktotal rtotal
  refine congrArg (fun t => Ideal.div t cN) ?_
  rw [← sum_flat (fun n => rterm (x (ix2 n 0)) (x (ix2 n 1)) (x (ix2 n 2)) (l (ix1 n)))]
  refine Finset.sum_congr rfl fun h _ => Finset.sum_congr rfl fun i _ => Finset.sum_congr rfl fun s _ =>
    Finset.sum_congr rfl fun q _ => ?_
  obtain ⟨r0, h0⟩ := hx (ix2 (flat h i s q) 0)
  obtain ⟨r1, h1⟩ := hx (ix2 (flat h i s q) 1)
  obtain ⟨r2, h2⟩ := hx (ix2 (flat h i s q) 2)
  rw [h0, h1, h2]
  exact kterm_eq_rterm r0 r1 r2 _ (hl _)

end Cert.Loss

end
-- ==== Proof.PreFacts.lean ====
/-
  What the precondition on the inputs says, element by element.  The printed predicate is the conjunction of two
  "for all" statements: every logit has absolute value strictly below +∞, and every label word l satisfies
  0 ≤ l < 3 read as a signed integer.  When the predicate holds (its one bit is 1), every logit is therefore a real
  number (neither infinity, and not the junk value ⊥, whose absolute value max ⊥ ⊤ = ⊤ is not below ⊤), and every
  label word is one of 0, 1, 2.
-/
import proofs.«400214_j68633577390300_3_alg».proof.Pre_finite_inputs
import proofs.«400214_j68633577390300_3_alg».proof.Proof.Gen.Pre_finite_inputs
import proofs.«400214_j68633577390300_3_alg».proof.Proof.Spec
import Idealize.ShloMosaic.Lib.ReduceAll
import Idealize.ShloMosaic.Lib.StableHlo.Predicate
import Idealize.ShloMosaic.Lib.ValueIdx

noncomputable section

namespace Cert.Loss

open Idealize.ShloMosaic Idealize.ShloMosaic.ValueIdx

/-- The scalar shape has exactly one index: an index is a function out of the empty set of axes. -/
instance : Subsingleton Cert.Pre_finite_inputs.S_.Idx := ⟨fun a b => funext fun d => d.elim0⟩

/-- An extended real whose absolute value max a (−a) is strictly below +∞ is a real: for a = ⊤ the maximum is ⊤,
    and for a = ⊥ it is −⊥ = ⊤ as well. -/
theorem real_of_abs_lt_top (a : EReal) (h : max a (-a) < ⊤) : ∃ r : ℝ, a = (r : EReal) := by
  induction a using EReal.rec with
  | bot => simp at h
  | coe r => exact ⟨r, rfl⟩
  | top => simp at h

/-- A 32-bit word w with 0 ≤ w and w < 3, both read signed, is 0, 1 or 2: its signed value is one of those three
    integers, and a word is determined by its signed value. -/
theorem word_lt_three (w : BitVec 32) (h0 : (0#32).sle w = true) (h3 : w.slt 3#32 = true) :
    w = 0#32 ∨ w = 1#32 ∨ w = 2#32 := by
  simp only [BitVec.sle, BitVec.slt, decide_eq_true_eq] at h0 h3
  have e0 : (0#32 : BitVec 32).toInt = 0 := by decide
  have e3 : (3#32 : BitVec 32).toInt = 3 := by decide
  rw [e0] at h0
  rw [e3] at h3
  have hw : w = BitVec.ofInt 32 w.toInt := (BitVec.ofInt_toInt).symm
  have hz : w.toInt = 0 ∨ w.toInt = 1 ∨ w.toInt = 2 := by omega
  rcases hz with hz | hz | hz <;> rw [hz] at hw
  · exact Or.inl hw
  · exact Or.inr (Or.inl hw)
  · exact Or.inr (Or.inr hw)

/-- The precondition read back: if the predicate's bit is 1 then every logit is a real number and every label word is
    0, 1 or 2. -/
theorem pre_facts (x : FVec Ideal SP .f32) (l : IVec SL 32)
    (h : Cert.Pre_finite_inputs.fn (F := Ideal) x l = fun _ => 1#1) :
    (∀ j : SP.Idx, ∃ r : ℝ, x j = (r : EReal))
    ∧ (∀ n : Fin 8388608, l (ValueIdx.ix1 n) = 0#32 ∨ l (ValueIdx.ix1 n) = 1#32 ∨ l (ValueIdx.ix1 n) = 2#32) := by
  -- the predicate at its one index: the conjunction (bitwise and of two bits) of the two "for all" reductions
  have h0 := congrFun h ValueIdx.ix0
  dsimp only [Cert.Pre_finite_inputs.fn] at h0
  obtain ⟨hx, hl⟩ := IntOp.andi_eq_one.1 h0
  refine ⟨fun j => ?_, fun n => ?_⟩
  · -- a reduction by "and" that is 1 had a 1 at every element: |x j| < the value of the pattern 0x7F800000, which is +∞
    have hj := Host.reduce_andi_all _ _ _ _ _ hx j
    change Ideal.cmp .olt (max (x j) (-(x j))) (Ideal.ofBits .f32 0x7F800000#32) = 1#1 at hj
    have htop : Ideal.ofBits .f32 0x7F800000#32 = (⊤ : EReal) := by simp [Ideal.ofBits, Ideal.ieee]
    rw [htop] at hj
    simp only [Ideal.cmp, StableHlo.Predicate.ofBool_eq_one_iff, decide_eq_true_eq] at hj
    exact real_of_abs_lt_top (x j) hj
  · -- likewise for the labels: at sample n both comparisons, 0 ≤ l and l < 3 (signed), are 1
    have hn := Host.reduce_andi_all _ _ _ _ _ hl (ValueIdx.ix1 n)
    change IntOp.andi (IntOp.cmpi .sge (l (ix1 n)) 0#32) (IntOp.cmpi .slt (l (ix1 n)) 3#32) = 1#1 at hn
    obtain ⟨h1, h2⟩ := IntOp.andi_eq_one.1 hn
    simp only [IntOp.cmpi, StableHlo.Predicate.ofBool_eq_one_iff] at h1 h2
    exact word_lt_three _ h1 h2

end Cert.Loss

end
-- ==== Proof.lean ====
/-
  Weighted, label-smoothed cross-entropy over 2²³ samples of three classes: a kernel that streams the transposed
  logits in [3, 8, 32768] blocks and accumulates one partial sum per half of the sample axis, against the plain
  formula  mean_n ( −Σ_k logsoftmax(x_n)_k · (0.9·[l_n = k] + 0.1/3) · w_{l_n} ).

  Over the extended reals, for finite logits and labels in {0, 1, 2}:
    * every logit, maximum, exponential and logarithm involved is a real number, so the per-sample terms of the two
      programs agree by algebra in ℝ:  c − (m + L) = (c − m) − L,  and
      A·logp_l + B·(logp₀ + logp₁ + logp₂) = Σ_k logp_k·(A·[l = k] + B);
    * the kernel's grouping of the samples by grid point, sublane and lane is a bijection with the sample axis, so
      the two totals are the same sum; both divide it by 2²³.
  The label range is needed: for a label outside {0, 1, 2} the kernel's select chain falls through to class 2 while
  the one-hot row is zero.  The frames of the two kernel programs are the generated ones; the reference's frame is
  its run with the result dropped; the idealization rewrote nothing.
-/
import proofs.«400214_j68633577390300_3_alg».proof.Defs
import proofs.«400214_j68633577390300_3_alg».proof.Proof.Gen.Kernel
import proofs.«400214_j68633577390300_3_alg».proof.Proof.Gen.Kernel.Skeleton
import proofs.«400214_j68633577390300_3_alg».proof.Proof.Gen.Kernel.Launch
import proofs.«400214_j68633577390300_3_alg».proof.Proof.Gen.Kernel.Points
import proofs.«400214_j68633577390300_3_alg».proof.Proof.Gen.Kernel.Frame
import proofs.«400214_j68633577390300_3_alg».proof.Proof.Gen.KernelIdeal
import proofs.«400214_j68633577390300_3_alg».proof.Proof.Gen.KernelIdeal.Skeleton
import proofs.«400214_j68633577390300_3_alg».proof.Proof.Gen.KernelIdeal.Launch
import proofs.«400214_j68633577390300_3_alg».proof.Proof.Gen.KernelIdeal.Points
import proofs.«400214_j68633577390300_3_alg».proof.Proof.Gen.KernelIdeal.Frame
import proofs.«400214_j68633577390300_3_alg».proof.Proof.Gen.ReferenceIdeal
import proofs.«400214_j68633577390300_3_alg».proof.Proof.Gen.Pre_finite_inputs
import proofs.«400214_j68633577390300_3_alg».proof.Proof.KRun
import proofs.«400214_j68633577390300_3_alg».proof.Proof.RefRun
import proofs.«400214_j68633577390300_3_alg».proof.Proof.RefRead
import proofs.«400214_j68633577390300_3_alg».proof.Proof.Algebra
import proofs.«400214_j68633577390300_3_alg».proof.Proof.PreFacts
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run keeps its arguments. -/
theorem frame_ri : Cert.frame_ReferenceIdeal := fun m ρ _ =>
  (θ_run Cert.ReferenceIdeal.defs _ _).mono (fun _ h c => (h c).2)
    (Cert.ReferenceIdeal.RefValue.run0 (F := Ideal) m ρ)

/-- Both programs end at the kernel-form total of the arguments: the kernel by its run, the reference because its
    total, read sample by sample, is the same sum once the logits are finite and the labels in range. -/
theorem algebraic : Cert.algebraic_KernelIdeal_ReferenceIdeal := by
  intro m ρ m' ρ' hpre hagree
  refine ⟨fun c => Cert.Loss.ktotal (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KValue.run m ρ, ?_⟩
  refine (θ_run Cert.ReferenceIdeal.defs _ _).mono (fun _ h c => ⟨(h c).1.trans ?_, (h c).2⟩)
    (Cert.ReferenceIdeal.RefValue.run0 (F := Ideal) m' ρ')
  rw [(hagree c).1, (hagree c).2]
  obtain ⟨hx, hl⟩ := Cert.Loss.pre_facts _ _ (hpre c)
  rw [Cert.ReferenceIdeal.RefValue.refTerm_eq _ _ hl]
  exact (Cert.Loss.ktotal_eq_rtotal _ _ hx hl).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
